-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x256x8192 : Shape := ⟨3, ![8, 256, 8192]⟩
abbrev S8x64x7x8192 : Shape := ⟨4, ![8, 64, 7, 8192]⟩
abbrev S_ : Shape := ⟨0, ![]⟩

class Facts : Prop where
  bcast_S_S8x256x8192 : S_.BroadcastsInDim S8x256x8192 (![] : Fin 0 → Fin S8x256x8192.rank)
  reducesTo_S8x256x8192_S_d0_1_2 : S8x256x8192.ReducesTo [0, 1, 2] S_
  h_S_ : 0 < S_.numel
  bcast_S_S8x64x7x8192 : S_.BroadcastsInDim S8x64x7x8192 (![] : Fin 0 → Fin S8x64x7x8192.rank)
  reducesTo_S8x64x7x8192_S_d0_1_2_3 : S8x64x7x8192.ReducesTo [0, 1, 2, 3] S_

variable [Facts]

def fn {F : FTy → Type} [FloatOps F] (main_arg0 : FVec F S8x256x8192 .f32) (main_arg1 : FVec F S8x64x7x8192 .f32) : IVec S_ 1 :=
  let main_v0 : FVec F S8x256x8192 .f32 := Host.absf main_arg0
  let main_cst : FVec F S_ .f32 := constant S_ .f32 0x7F800000#32
  let main_v1 : FVec F S8x256x8192 .f32 := broadcastInDim S8x256x8192 ![] bcast_S_S8x256x8192 main_cst
  let main_v2 : IVec S8x256x8192 1 := cmpf .olt main_v0 main_v1
  let main_c : IVec S_ 1 := constantI S_ 1 1#1
  let main_v3 : IVec S_ 1 := (fun x v => Host.reduce IntOp.andi x v reducesTo_S8x256x8192_S_d0_1_2 h_S_) main_v2 main_c
  let main_v4 : FVec F S8x64x7x8192 .f32 := Host.absf main_arg1
  let main_cst_0 : FVec F S_ .f32 := constant S_ .f32 0x7F800000#32
  let main_v5 : FVec F S8x64x7x8192 .f32 := broadcastInDim S8x64x7x8192 ![] bcast_S_S8x64x7x8192 main_cst_0
  let main_v6 : IVec S8x64x7x8192 1 := cmpf .olt main_v4 main_v5
  let main_c_1 : IVec S_ 1 := constantI S_ 1 1#1
  let main_v7 : IVec S_ 1 := (fun x v => Host.reduce IntOp.andi x v reducesTo_S8x64x7x8192_S_d0_1_2_3 h_S_) main_v6 main_c_1
  let main_v8 : IVec S_ 1 := andi main_v3 main_v7
  main_v8
-- ==== Kernel.lean ====
abbrev S8x256x8192 : Shape := ⟨3, ![8, 256, 8192]⟩
abbrev S8x64x7x8192 : Shape := ⟨4, ![8, 64, 7, 8192]⟩
abbrev S1x256x128 : Shape := ⟨3, ![1, 256, 128]⟩
abbrev S1x256x2048 : Shape := ⟨3, ![1, 256, 2048]⟩
abbrev S1x64x7x2048 : Shape := ⟨4, ![1, 64, 7, 2048]⟩
abbrev S256x128 : Shape := ⟨2, ![256, 128]⟩
abbrev S256x2048 : Shape := ⟨2, ![256, 2048]⟩
abbrev S256x2304 : Shape := ⟨2, ![256, 2304]⟩
abbrev S4x64x2048 : Shape := ⟨3, ![4, 64, 2048]⟩
abbrev S1x64x1x2048 : Shape := ⟨4, ![1, 64, 1, 2048]⟩
abbrev S64x2048 : Shape := ⟨2, ![64, 2048]⟩
abbrev S1x64x2048 : Shape := ⟨3, ![1, 64, 2048]⟩

abbrev nBuf : Space → Nat
  | .hbm => 3
  | .vmem => 10
  | .smem => 0
  | _ => 0

abbrev bufTy : (tb : Table) → Fin (tcTables nBuf tb) → BufTy
  | .hbm, ⟨0, _⟩ => ⟨S8x256x8192, .f32⟩
  | .hbm, ⟨1, _⟩ => ⟨S8x64x7x8192, .f32⟩
  | .hbm, ⟨2, _⟩ => ⟨S8x256x8192, .f32⟩
  | .local _ .vmem, ⟨0, _⟩ => ⟨S1x256x128, .f32⟩
  | .local _ .vmem, ⟨1, _⟩ => ⟨S1x256x128, .f32⟩
  | .local _ .vmem, ⟨2, _⟩ => ⟨S1x256x2048, .f32⟩
  | .local _ .vmem, ⟨3, _⟩ => ⟨S1x256x2048, .f32⟩
  | .local _ .vmem, ⟨4, _⟩ => ⟨S1x256x128, .f32⟩
  | .local _ .vmem, ⟨5, _⟩ => ⟨S1x256x128, .f32⟩
  | .local _ .vmem, ⟨6, _⟩ => ⟨S1x64x7x2048, .f32⟩
  | .local _ .vmem, ⟨7, _⟩ => ⟨S1x64x7x2048, .f32⟩
  | .local _ .vmem, ⟨8, _⟩ => ⟨S1x256x2048, .f32⟩
  | .local _ .vmem, ⟨9, _⟩ => ⟨S1x256x2048, .f32⟩
  | _, _ => ⟨S8x256x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg1 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, c0_i32_0.toNat, v2.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg1 c16_i32
  let c16_i32_0 : BitVec 32 := 16#32
  let v1 : BitVec 32 := Scalar.addi v0 c16_i32_0
  let c63_i32 : BitVec 32 := 63#32
  let v2 : BitVec 32 := Scalar.minsi v1 c63_i32
  let c0_i32 : BitVec 32 := 0#32
  let c0_i32_1 : BitVec 32 := 0#32
  ![arg0.toNat, c0_i32.toNat, v2.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x64x7x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  inb_S1x256x128_S1x256x128_0_0_0 : ∀ a, (![0, 0, 0] : Fin 3 → Nat) a + S1x256x128.size a ≤ S1x256x128.size a
  h_S1x256x128 : 0 < S1x256x128.numel
  shapeCasts_S1x256x128_S256x128 : S1x256x128.ShapeCasts S256x128
  inb_S1x256x2048_S1x256x2048_0_0_0 : ∀ a, (![0, 0, 0] : Fin 3 → Nat) a + S1x256x2048.size a ≤ S1x256x2048.size a
  h_S1x256x2048 : 0 < S1x256x2048.numel
  shapeCasts_S1x256x2048_S256x2048 : S1x256x2048.ShapeCasts S256x2048
  concatenates_S256x128_S256x2048_S256x128_S256x2304_d1 : Shape.Concatenates [S256x128, S256x2048, S256x128] S256x2304 1
  rotates_S256x2304_d1 : S256x2304.Rotates 1 none
  slices_S256x2304_o0_128_S256x2048 : S256x2304.Slices ![0, 128] S256x2048
  shapeCasts_S256x2048_S4x64x2048 : S256x2048.ShapeCasts S4x64x2048
  inb_S1x64x7x2048_S1x64x1x2048_0_0_0_0 : ∀ a, (![0, 0, 0, 0] : Fin 4 → Nat) a + S1x64x1x2048.size a ≤ S1x64x7x2048.size a
  h_S1x64x1x2048 : 0 < S1x64x1x2048.numel
  shapeCasts_S1x64x1x2048_S64x2048 : S1x64x1x2048.ShapeCasts S64x2048
  shapeCasts_S64x2048_S1x64x2048 : S64x2048.ShapeCasts S1x64x2048
  broadcasts_S1x64x2048_S4x64x2048 : S1x64x2048.Broadcasts S4x64x2048
  inb_S1x64x7x2048_S1x64x1x2048_0_0_1_0 : ∀ a, (![0, 0, 1, 0] : Fin 4 → Nat) a + S1x64x1x2048.size a ≤ S1x64x7x2048.size a
  inb_S1x64x7x2048_S1x64x1x2048_0_0_2_0 : ∀ a, (![0, 0, 2, 0] : Fin 4 → Nat) a + S1x64x1x2048.size a ≤ S1x64x7x2048.size a
  inb_S1x64x7x2048_S1x64x1x2048_0_0_3_0 : ∀ a, (![0, 0, 3, 0] : Fin 4 → Nat) a + S1x64x1x2048.size a ≤ S1x64x7x2048.size a
  inb_S1x64x7x2048_S1x64x1x2048_0_0_4_0 : ∀ a, (![0, 0, 4, 0] : Fin 4 → Nat) a + S1x64x1x2048.size a ≤ S1x64x7x2048.size a
  inb_S1x64x7x2048_S1x64x1x2048_0_0_5_0 : ∀ a, (![0, 0, 5, 0] : Fin 4 → Nat) a + S1x64x1x2048.size a ≤ S1x64x7x2048.size a
  inb_S1x64x7x2048_S1x64x1x2048_0_0_6_0 : ∀ a, (![0, 0, 6, 0] : Fin 4 → Nat) a + S1x64x1x2048.size a ≤ S1x64x7x2048.size a
  shapeCasts_S4x64x2048_S256x2048 : S4x64x2048.ShapeCasts S256x2048
  shapeCasts_S256x2048_S1x256x2048 : S256x2048.ShapeCasts S1x256x2048
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x128.size a ≤ S8x256x8192.size a
  hwx0_0 : ∀ i : grid0.Coords, EltTy.bits .f32 = 32 ∨ (Rect.block (s := S8x256x8192) S1x256x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x256x2048.size a ≤ S8x256x8192.size a
  hwx0_1 : ∀ i : grid0.Coords, EltTy.bits .f32 = 32 ∨ (Rect.block (s := S8x256x8192) S1x256x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256x128.size a ≤ S8x256x8192.size a
  hwx0_2 : ∀ i : grid0.Coords, EltTy.bits .f32 = 32 ∨ (Rect.block (s := S8x256x8192) S1x256x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x64x7x2048.size a ≤ S8x64x7x8192.size a
  hwx0_3 : ∀ i : grid0.Coords, EltTy.bits .f32 = 32 ∨ (Rect.block (s := S8x64x7x8192) S1x64x7x2048.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x256x2048.size a ≤ S8x256x8192.size a
  hwx0_4 : ∀ i : grid0.Coords, EltTy.bits .f32 = 32 ∨ (Rect.block (s := S8x256x8192) S1x256x2048.size (cc0_transform_4 i) (hinb0_4 i)).WholeWords (EltTy.packing .f32)

variable [Facts₀]

abbrev win0_0 : Pipeline.Window sig grid0 :=
  Pipeline.Window.ofSpec (Memref.whole main_arg0) S1x256x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1x256x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S1x256x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg1) S1x64x7x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1x256x2048.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8x256x8192 : Shape := ⟨3, ![8, 256, 8192]⟩
abbrev S8x64x7x8192 : Shape := ⟨4, ![8, 64, 7, 8192]⟩
abbrev S_ : Shape := ⟨0, ![]⟩
abbrev S8x256x8198 : Shape := ⟨3, ![8, 256, 8198]⟩
abbrev S8x256x1x8192 : Shape := ⟨4, ![8, 256, 1, 8192]⟩
abbrev S8x256x7x8192 : Shape := ⟨4, ![8, 256, 7, 8192]⟩
abbrev S256 : Shape := ⟨1, ![256]⟩
abbrev S256x1 : Shape := ⟨2, ![256, 1]⟩

abbrev nBuf : Space → Nat
  | .hbm => 55
  | .vmem => 0
  | .smem => 0
  | _ => 0

abbrev bufTy : (tb : Table) → Fin (tcTables nBuf tb) → BufTy
  | .hbm, ⟨0, _⟩ => ⟨S8x256x8192, .f32⟩
  | .hbm, ⟨1, _⟩ => ⟨S8x64x7x8192, .f32⟩
  | .hbm, ⟨2, _⟩ => ⟨S_, .i32⟩
  | .hbm, ⟨3, _⟩ => ⟨S_, .f32⟩
  | .hbm, ⟨4, _⟩ => ⟨S8x256x8198, .f32⟩
  | .hbm, ⟨5, _⟩ => ⟨S8x256x8192, .f32⟩
  | .hbm, ⟨6, _⟩ => ⟨S8x256x8192, .f32⟩
  | .hbm, ⟨7, _⟩ => ⟨S8x256x8192, .f32⟩
  | .hbm, ⟨8, _⟩ => ⟨S8x256x8192, .f32⟩
  | .hbm, ⟨9, _⟩ => ⟨S8x256x8192, .f32⟩
  | .hbm, ⟨10, _⟩ => ⟨S8x256x8192, .f32⟩
  | .hbm, ⟨11, _⟩ => ⟨S8x256x8192, .f32⟩
  | .hbm, ⟨12, _⟩ => ⟨S8x256x1x8192, .f32⟩
  | .hbm, ⟨13, _⟩ => ⟨S8x256x1x8192, .f32⟩
  | .hbm, ⟨14, _⟩ => ⟨S8x256x1x8192, .f32⟩
  | .hbm, ⟨15, _⟩ => ⟨S8x256x1x8192, .f32⟩
  | .hbm, ⟨16, _⟩ => ⟨S8x256x1x8192, .f32⟩
  | .hbm, ⟨17, _⟩ => ⟨S8x256x1x8192, .f32⟩
  | .hbm, ⟨18, _⟩ => ⟨S8x256x1x8192, .f32⟩
  | .hbm, ⟨19, _⟩ => ⟨S8x256x7x8192, .f32⟩
  | .hbm, ⟨20, _⟩ => ⟨S256, .i32⟩
  | .hbm, ⟨21, _⟩ => ⟨S_, .i32⟩
  | .hbm, ⟨22, _⟩ => ⟨S_, .i32⟩
  | .hbm, ⟨23, _⟩ => ⟨S_, .i32⟩
  | .hbm, ⟨24, _⟩ => ⟨S_, .i1⟩
  | .hbm, ⟨25, _⟩ => ⟨S_, .i32⟩
  | .hbm, ⟨26, _⟩ => ⟨S_, .i32⟩
  | .hbm, ⟨27, _⟩ => ⟨S256, .i32⟩
  | .hbm, ⟨28, _⟩ => ⟨S256, .i32⟩
  | .hbm, ⟨29, _⟩ => ⟨S_, .i32⟩
  | .hbm, ⟨30, _⟩ => ⟨S256, .i32⟩
  | .hbm, ⟨31, _⟩ => ⟨S256, .i1⟩
  | .hbm, ⟨32, _⟩ => ⟨S_, .i32⟩
  | .hbm, ⟨33, _⟩ => ⟨S256, .i32⟩
  | .hbm, ⟨34, _⟩ => ⟨S256, .i1⟩
  | .hbm, ⟨35, _⟩ => ⟨S_, .i32⟩
  | .hbm, ⟨36, _⟩ => ⟨S_, .i1⟩
  | .hbm, ⟨37, _⟩ => ⟨S256, .i1⟩
  | .hbm, ⟨38, _⟩ => ⟨S256, .i1⟩
  | .hbm, ⟨39, _⟩ => ⟨S256, .i1⟩
  | .hbm, ⟨40, _⟩ => ⟨S256, .i32⟩
  | .hbm, ⟨41, _⟩ => ⟨S256, .i32⟩
  | .hbm, ⟨42, _⟩ => ⟨S256, .i32⟩
  | .hbm, ⟨43, _⟩ => ⟨S_, .i32⟩
  | .hbm, ⟨44, _⟩ => ⟨S256, .i32⟩
  | .hbm, ⟨45, _⟩ => ⟨S256, .i1⟩
  | .hbm, ⟨46, _⟩ => ⟨S_, .i32⟩
  | .hbm, ⟨47, _⟩ => ⟨S256, .i32⟩
  | .hbm, ⟨48, _⟩ => ⟨S256, .i32⟩
  | .hbm, ⟨49, _⟩ => ⟨S256, .i32⟩
  | .hbm, ⟨50, _⟩ => ⟨S256x1, .i32⟩
  | .hbm, ⟨51, _⟩ => ⟨S8x256x7x8192, .f32⟩
  | .hbm, ⟨52, _⟩ => ⟨S8x256x7x8192, .f32⟩
  | .hbm, ⟨53, _⟩ => ⟨S_, .f32⟩
  | .hbm, ⟨54, _⟩ => ⟨S8x256x8192, .f32⟩
  | _, _ => ⟨S8x256x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_c_0 : Ref sig .tc := ⟨.hbm, 21, rfl⟩
abbrev main_call1_v0 : Ref sig .tc := ⟨.hbm, 22, rfl⟩
abbrev main_call1_c : Ref sig .tc := ⟨.hbm, 23, rfl⟩
abbrev main_call1_v1 : Ref sig .tc := ⟨.hbm, 24, rfl⟩
abbrev main_call1_c_0 : Ref sig .tc := ⟨.hbm, 25, rfl⟩
abbrev main_call1_v2 : Ref sig .tc := ⟨.hbm, 26, rfl⟩
abbrev main_call1_v3 : Ref sig .tc := ⟨.hbm, 27, rfl⟩
abbrev main_call1_v4 : Ref sig .tc := ⟨.hbm, 28, rfl⟩
abbrev main_call1_c_1 : Ref sig .tc := ⟨.hbm, 29, rfl⟩
abbrev main_call1_v5 : Ref sig .tc := ⟨.hbm, 30, rfl⟩
abbrev main_call1_v6 : Ref sig .tc := ⟨.hbm, 31, rfl⟩
abbrev main_call1_c_2 : Ref sig .tc := ⟨.hbm, 32, rfl⟩
abbrev main_call1_v7 : Ref sig .tc := ⟨.hbm, 33, rfl⟩
abbrev main_call1_v8 : Ref sig .tc := ⟨.hbm, 34, rfl⟩
abbrev main_call1_c_3 : Ref sig .tc := ⟨.hbm, 35, rfl⟩
abbrev main_call1_v9 : Ref sig .tc := ⟨.hbm, 36, rfl⟩
abbrev main_call1_v10 : Ref sig .tc := ⟨.hbm, 37, rfl⟩
abbrev main_call1_v11 : Ref sig .tc := ⟨.hbm, 38, rfl⟩
abbrev main_call1_v12 : Ref sig .tc := ⟨.hbm, 39, rfl⟩
abbrev main_call1_v13 : Ref sig .tc := ⟨.hbm, 40, rfl⟩
abbrev main_call1_v14 : Ref sig .tc := ⟨.hbm, 41, rfl⟩
abbrev main_v17 : Ref sig .tc := ⟨.hbm, 42, rfl⟩
abbrev main_c_1 : Ref sig .tc := ⟨.hbm, 43, rfl⟩
abbrev main_v18 : Ref sig .tc := ⟨.hbm, 44, rfl⟩
abbrev main_v19 : Ref sig .tc := ⟨.hbm, 45, rfl⟩
abbrev main_c_2 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_cst : Ref sig .tc := ⟨.hbm, 53, rfl⟩
abbrev main_v26 : Ref sig .tc := ⟨.hbm, 54, rfl⟩

abbrev nD : Nat := 1
abbrev τ : Topo := Topo.v7x

variable {F : FTy → Type} [FloatOps F]

class Facts₀ : Prop where
  pads_S8x256x8192_S8x256x8198_000_000_330 : S8x256x8192.Pads (![0, 0, 3] : Fin 3 → Nat) ![0, 0, 3] ![0, 0, 0] S8x256x8198
  h_S_ : 0 < S_.numel
  slices_S8x256x8198_S8x256x8192_0_0_0 : S8x256x8198.Slices ![0, 0, 0] S8x256x8192
  slices_S8x256x8198_S8x256x8192_0_0_1 : S8x256x8198.Slices ![0, 0, 1] S8x256x8192
  slices_S8x256x8198_S8x256x8192_0_0_2 : S8x256x8198.Slices ![0, 0, 2] S8x256x8192
  slices_S8x256x8198_S8x256x8192_0_0_3 : S8x256x8198.Slices ![0, 0, 3] S8x256x8192
  slices_S8x256x8198_S8x256x8192_0_0_4 : S8x256x8198.Slices ![0, 0, 4] S8x256x8192
  slices_S8x256x8198_S8x256x8192_0_0_5 : S8x256x8198.Slices ![0, 0, 5] S8x256x8192
  slices_S8x256x8198_S8x256x8192_0_0_6 : S8x256x8198.Slices ![0, 0, 6] S8x256x8192
  bcast_S8x256x8192_S8x256x1x8192_0_1_3 : S8x256x8192.BroadcastsInDim S8x256x1x8192 (![0, 1, 3] : Fin 3 → Fin S8x256x1x8192.rank)
  concatenates_S8x256x1x8192_S8x256x1x8192_S8x256x1x8192_S8x256x1x8192_S8x256x1x8192_S8x256x1x8192_S8x256x1x8192_S8x256x7x8192_d2 : Shape.Concatenates [S8x256x1x8192, S8x256x1x8192, S8x256x1x8192, S8x256x1x8192, S8x256x1x8192, S8x256x1x8192, S8x256x1x8192] S8x256x7x8192 2
  bcast_S_S256 : S_.BroadcastsInDim S256 (![] : Fin 0 → Fin S256.rank)
  bcast_S256_S256x1_0 : S256.BroadcastsInDim S256x1 (![0] : Fin 1 → Fin S256x1.rank)
  reducesTo_S8x256x7x8192_S8x256x8192_d2 : S8x256x7x8192.ReducesTo [2] S8x256x8192
  gather_S8x64x7x8192_S256x1_S8x256x7x8192_023_1_n_n_1_1_8178192_wf : GatherDims.WF S8x64x7x8192 S256x1 S8x256x7x8192 [0, 2, 3] [1] [] [1] [] 1 ![8, 1, 7, 8192]

variable [Facts₀]

def gather_S8x64x7x8192_S256x1_S8x256x7x8192_023_1_n_n_1_1_8178192 : GatherDims S8x64x7x8192 S256x1 S8x256x7x8192 where
  offsetDims := [0, 2, 3]
  collapsedSliceDims := [1]
  operandBatchingDims := []
  startIndicesBatchingDims := []
  startIndexMap := [1]
  indexVectorDim := 1
  sliceSizes := ![8, 1, 7, 8192]
  wf := gather_S8x64x7x8192_S256x1_S8x256x7x8192_023_1_n_n_1_1_8178192_wf

class Facts : Prop extends Facts₀ where

variable [Facts]
-- ==== Proof.BitsPay.lean ====
/-
  What the kernel body stores into the output block at a grid point, as one pure function of the four blocks it loads: the
  left halo, the centre tile, the right halo (each of the signal) and the tile of taps.
-/
import proofs.«413678_j46042049413166_3_alg».proof.Proof.Gen.Kernel.Skeleton
import Idealize.ShloMosaic.Lib.Pipeline.FrameBody

noncomputable section

namespace Cert.Kernel.Hand

open Idealize.ShloMosaic Cert.Kernel Cert.Kernel.Gen Cert.Kernel.Facts₀

variable {F : FTy → Type} [FloatOps F] [Cert.Kernel.Facts]

/-- A whole halo block. -/
abbrev rH : Rect S1x256x128 := Rect.unit (s := S1x256x128) ![0, 0, 0] S1x256x128.size Facts₀.inb_S1x256x128_S1x256x128_0_0_0
/-- A whole centre (or output) block. -/
abbrev rC : Rect S1x256x2048 := Rect.unit (s := S1x256x2048) ![0, 0, 0] S1x256x2048.size Facts₀.inb_S1x256x2048_S1x256x2048_0_0_0
/-- Tap k of the block of taps, over every weight channel and position. -/
abbrev rW0 : Rect S1x64x7x2048 := Rect.unit (s := S1x64x7x2048) ![0, 0, 0, 0] S1x64x1x2048.size Facts₀.inb_S1x64x7x2048_S1x64x1x2048_0_0_0_0
abbrev rW1 : Rect S1x64x7x2048 := Rect.unit (s := S1x64x7x2048) ![0, 0, 1, 0] S1x64x1x2048.size Facts₀.inb_S1x64x7x2048_S1x64x1x2048_0_0_1_0
abbrev rW2 : Rect S1x64x7x2048 := Rect.unit (s := S1x64x7x2048) ![0, 0, 2, 0] S1x64x1x2048.size Facts₀.inb_S1x64x7x2048_S1x64x1x2048_0_0_2_0
abbrev rW3 : Rect S1x64x7x2048 := Rect.unit (s := S1x64x7x2048) ![0, 0, 3, 0] S1x64x1x2048.size Facts₀.inb_S1x64x7x2048_S1x64x1x2048_0_0_3_0
abbrev rW4 : Rect S1x64x7x2048 := Rect.unit (s := S1x64x7x2048) ![0, 0, 4, 0] S1x64x1x2048.size Facts₀.inb_S1x64x7x2048_S1x64x1x2048_0_0_4_0
abbrev rW5 : Rect S1x64x7x2048 := Rect.unit (s := S1x64x7x2048) ![0, 0, 5, 0] S1x64x1x2048.size Facts₀.inb_S1x64x7x2048_S1x64x1x2048_0_0_5_0
abbrev rW6 : Rect S1x64x7x2048 := Rect.unit (s := S1x64x7x2048) ![0, 0, 6, 0] S1x64x1x2048.size Facts₀.inb_S1x64x7x2048_S1x64x1x2048_0_0_6_0

/-- The halo-extended tile the body assembles from the three signal blocks at grid point `i`. -/
def extended (i : grid0.Coords) (xl : Vec F S1x256x128 .f32) (xc : Vec F S1x256x2048 .f32) (xr : Vec F S1x256x128 .f32) : FVec F S256x2304 .f32 :=
  k0_pay3 i (View.ld xl rH) (View.ld xr rH) (View.ld xc rC)

/-- The value the body stores into the output block at grid point `i`, from the four loaded blocks. -/
def stored (i : grid0.Coords) (xl : Vec F S1x256x128 .f32) (xc : Vec F S1x256x2048 .f32) (xr : Vec F S1x256x128 .f32)
    (wt : Vec F S1x64x7x2048 .f32) : FVec F S1x256x2048 .f32 :=
  k0_pay1
    (k0_pay6 (k0_pay2 (View.ld xc rC)) (extended i xl xc xr)
      (k0_pay4 i (View.ld xl rH) (View.ld xr rH) (View.ld xc rC) (View.ld wt rW0) (View.ld wt rW1))
      (k0_pay5 i (View.ld xl rH) (View.ld xr rH) (View.ld xc rC))
      (View.ld wt rW2) (View.ld wt rW3) (View.ld wt rW4) (View.ld wt rW5))
    (k0_pay7 (extended i xl xc xr))
    (View.ld wt rW6)

/-- The output block after the body: its one store, which covers it. -/
def outBlock (i : grid0.Coords) (xl : Vec F S1x256x128 .f32) (xc : Vec F S1x256x2048 .f32) (xr : Vec F S1x256x128 .f32)
    (wt : Vec F S1x64x7x2048 .f32) : Vec F S1x256x2048 .f32 :=
  View.canon [⟨rC, stored i xl xc xr wt⟩]

end Cert.Kernel.Hand

end
-- ==== Proof.BitsBody.lean ====
/-
  The kernel body as a triple: on whole staging buffers holding the left halo, the centre tile, the right halo and the taps,
  and an output buffer holding anything, the body runs to its end without a fault, leaves the four inputs as they were and
  the output buffer at the one value it stores there.
-/
import proofs.«413678_j46042049413166_3_alg».proof.Proof.BitsPay
import proofs.«413678_j46042049413166_3_alg».proof.Proof.Gen.Kernel.Launch
import proofs.«413678_j46042049413166_3_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The one store fills the output block. -/
theorem cover_out (p0 : Vec F S1x256x2048 .f32) (y : S1x256x2048.Idx) :
    ∃ pc ∈ ([⟨rC, p0⟩] : List (View.Piece (Elt F) S1x256x2048 .f32)), y ∈ pc.1.set :=
  View.cover_of_tiled [⟨rC, p0⟩] S1x256x2048.size (by rfl) y

set_option maxHeartbeats 4000000 in
/-- The body's triple. -/
theorem sound_kernel (c : Dev nD) (E : Set ℕ) (i : grid0.Coords)
    (arg2 : Memref sig .tc .vmem S1x256x128 .f32) (harg2 : arg2.IsWhole) (arg3 : Memref sig .tc .vmem S1x256x2048 .f32) (harg3 : arg3.IsWhole)
    (arg4 : Memref sig .tc .vmem S1x256x128 .f32) (harg4 : arg4.IsWhole) (arg5 : Memref sig .tc .vmem S1x64x7x2048 .f32) (harg5 : arg5.IsWhole)
    (arg6 : Memref sig .tc .vmem S1x256x2048 .f32) (harg6 : arg6.IsWhole)
    (xl : Vec F S1x256x128 .f32) (xc : Vec F S1x256x2048 .f32) (xr : Vec F S1x256x128 .f32) (wt : Vec F S1x64x7x2048 .f32) (K : PUnit → sProp 𝕄) :
    iprop(owns (c : Thread nD τ) arg2 fullShare xl ∗ owns (c : Thread nD τ) arg3 fullShare xc ∗ owns (c : Thread nD τ) arg4 fullShare xr
        ∗ owns (c : Thread nD τ) arg5 fullShare wt ∗ (∃ d, owns (c : Thread nD τ) arg6 fullShare d)
        ∗ (iprop(owns (c : Thread nD τ) arg2 fullShare xl ∗ owns (c : Thread nD τ) arg3 fullShare xc ∗ owns (c : Thread nD τ) arg4 fullShare xr
            ∗ owns (c : Thread nD τ) arg5 fullShare wt ∗ owns (c : Thread nD τ) arg6 fullShare (outBlock i xl xc xr wt)) -∗ K ⟨⟩))
      ⊢ wp frame (wpE (defs₀ (F := F)) Variants.none c none) E (cc0__ska_kernel i arg2 harg2 arg3 harg3 arg4 harg4 arg5 harg5 arg6 harg6) K := by
  simp only [cc0__ska_kernel_eq_skeleton]; unfold cc0__ska_kernel_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover_out _)

end Cert.Kernel.Hand

end
-- ==== Proof.BitsFrame.lean ====
/-
  The kernel's run. Three of its five windows — the left halo, the centre tile, the right halo — read ONE array, the signal,
  at different blocks; the fourth reads the taps and the fifth writes the result. The signal's buffer is therefore lent to
  the three windows at three shares that make up the whole, and given back whole at the end: nothing writes it. At every grid
  point each input window's staging buffer holds its block of its array as the launch found it, and the body leaves in the
  output window's staging buffer the one value it stores there.
-/
import proofs.«413678_j46042049413166_3_alg».proof.Proof.BitsBody
import Idealize.ShloMosaic.Lib.Pipeline.Launch

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays as the region finds them, and the windows' blocks -/

/-- Core `c`'s buffers when the region is entered: as launched (the program is the region alone). -/
abbrev V (c : Dev nD) (b : Ref sig .tc) : Buf (Elt F) ((c : Thread nD τ).loc b) := m ((c : Thread nD τ).loc b)

/-- Window `w`'s block at point `t`, read off its array. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The proof data -/

/-- The share of its array each input window holds: the signal's three windows a half and two quarters, the taps' window
    the whole. -/
def shareOf : Fin cfg0.W → PosShare TreeShare
  | ⟨0, _⟩ => fullShare.left
  | ⟨1, _⟩ => fullShare.right.left
  | ⟨2, _⟩ => fullShare.right.right
  | ⟨3, _⟩ => fullShare
  | ⟨4, _⟩ => fullShare

/-- The pipeline's proof data on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outBlock (grid0.coords t) (iblk m c 0 t) (iblk m c 1 t) (iblk m c 2 t) (iblk m c 3 t)
  Φ _ := Pipeline.scopedRest (Ix := Unit) (Name := ℕ) (U := UR sig nD τ) (Lvl := ℕ) (Val := Elt F) spec0 c
  q := shareOf
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) :
    (dats m 0 c).after 4 t = outBlock (grid0.coords t) (iblk m c 0 t) (iblk m c 1 t) (iblk m c 2 t) (iblk m c 3 t) := by dsimp only [dats]

/-- An input window's current staging buffer holds its block at every point. -/
theorem before0 (c : Dev nD) (t : Fin cfg0.N) (d) : (dats m 0 c).before 0 t d = iblk m c 0 t :=
  ((dats m 0 c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem before1 (c : Dev nD) (t : Fin cfg0.N) (d) : (dats m 0 c).before 1 t d = iblk m c 1 t :=
  ((dats m 0 c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
theorem before2 (c : Dev nD) (t : Fin cfg0.N) (d) : (dats m 0 c).before 2 t d = iblk m c 2 t :=
  ((dats m 0 c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)
theorem before3 (c : Dev nD) (t : Fin cfg0.N) (d) : (dats m 0 c).before 3 t d = iblk m c 3 t :=
  ((dats m 0 c).before_in_eq_fetched 3 rfl (fun _ => rfl) (fun _ _ _ => rfl) (fun t => by rw [after3]; unfold Dat.blockOf iblk; rw [A_eq]; try rfl) t d).trans
    (by unfold Dat.fetched Dat.blockOf iblk; rw [A_eq]; try rfl)

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).Φ t.succ = (dats m 0 c).Φ t.castSucc from rfl,
    show (dats m 0 c).owesAt () t.succ = (dats m 0 c).owesAt () t.castSucc from rfl,
    after0, after1, after2, after3, after4]
  iintro ⟨HΦ, Ho, ⟨%d0, H0⟩, ⟨%d1, H1⟩, ⟨%d2, H2⟩, ⟨%d3, H3⟩, ⟨%d4, H4⟩⟩
  iapply (sound_kernel c Set.univ (grid0.coords t) _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation (c : Dev nD) : BodyObligation (dats (F := F) m 0 c) (defs₀ (F := F)) Variants.none () Set.univ := fun t => by
  rw [bigSep_W0, bigSep_W0]
  exact sound_body m c t

end Cert.Kernel.Hand

end
-- ==== Proof.BitsRun.lean ====
/-
  The kernel's run through the launch: the signal's buffer, whole at entry, is dealt to its three reading windows as a half
  and two quarters of the full share; the taps' and the result's buffers go whole to their one window each.
-/
import proofs.«413678_j46042049413166_3_alg».proof.Proof.BitsFrame

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The buffers behind the five windows are three: the signal's, the taps' and the result's. -/
theorem bigSep_arrs {M : Type} [URA M] (Φ : Ref sig .tc → sProp M) :
    bigSep (Finset.univ.image (Pipeline.arrRef spec0)) Φ = iprop(Φ main_arg0 ∗ Φ main_arg1 ∗ Φ main_v0) :=
  bigSep_eq_bigSepL_of_eq [main_arg0, main_arg1, main_v0] (by decide) (by decide) Φ

/-- The three buffers behind the five windows, each whole at its launch contents, are the windows' arrays at their shares. -/
theorem hsplit (c : Dev nD) :
    (Pipeline.arrBufs (Ix := Unit) (Name := ℕ) (U := UR sig nD τ) (Lvl := ℕ) spec0 c (V m c) : sProp 𝕄)
      ⊢ (dats m 0 c).arrays (fun w => (dats m 0 c).arrAt w 0) := by
  unfold Pipeline.arrBufs Dat.arrays
  rw [bigSep_arrs, bigSep_W0]
  have s0 : (dats m 0 c).share 0 = fullShare.left := rfl
  have s1 : (dats m 0 c).share 1 = fullShare.right.left := rfl
  have s2 : (dats m 0 c).share 2 = fullShare.right.right := rfl
  have s3 : (dats m 0 c).share 3 = fullShare := rfl
  have s4 : (dats m 0 c).share 4 = fullShare := rfl
  have a0 : (dats m 0 c).arrAt 0 0 = V m c main_arg0 := rfl
  have a1 : (dats m 0 c).arrAt 1 0 = V m c main_arg0 := rfl
  have a2 : (dats m 0 c).arrAt 2 0 = V m c main_arg0 := rfl
  have a3 : (dats m 0 c).arrAt 3 0 = V m c main_arg1 := rfl
  have a4 : (dats m 0 c).arrAt 4 0 = V m c main_v0 := rfl
  rw [s0, s1, s2, s3, s4]
  beta_reduce
  rw [a0, a1, a2, a3, a4, (arr_whole0 0).set_eq_univ, (arr_whole0 3).set_eq_univ, (arr_whole0 4).set_eq_univ]
  have hx : (c.tc.loc main_arg0 ↦{fullShare} V m c main_arg0 : sProp 𝕄)
      ⊢ iprop((c.tc.loc main_arg0 ↦{fullShare.left} V m c main_arg0) ∗ (c.tc.loc main_arg0 ↦{fullShare.right.left} V m c main_arg0)
          ∗ (c.tc.loc main_arg0 ↦{fullShare.right.right} V m c main_arg0)) := by
    refine (pointsTo_share (PosShare.mem_left_op_right fullShare)).1.trans ?_
    exact sep_mono .rfl (pointsTo_share (PosShare.mem_left_op_right fullShare.right)).1
  iintro ⟨Hx, Hw, Ho⟩
  ihave Hx3 := hx $$ Hx
  icases Hx3 with ⟨Hx0, Hx1, Hx2⟩
  isplitl [Hx0]; · iexact Hx0
  isplitl [Hx1]; · iexact Hx1
  isplitl [Hx2]; · iexact Hx2
  isplitl [Hw]; · iexact Hw
  iexact Ho

/-! ## The run -/

-- the launch theorem's implicit arguments are found by unifying its conclusion with this one, which takes unfolding plain
-- definitions in a metavariable's type
set_option backward.isDefEq.respectTransparency.types false in
/-- At the compiled mesh, for any float values, from any memory with zero counters: every weakly fair execution of the
    program terminates without a fault, and every final state has each window's array at what the write-backs of all the
    grid points leave of its launch contents. -/
theorem run_main : θ_run (defs (F := F)) (onTc (τ := τ) (main (F := F))) ⟨m, fun _ => 0, ρ⟩ (fun r => ∀ (c : Dev nD) (w : Fin cfg0.W),
    r.2.mem ((cfg0.win w).arr.view.loc (c : Thread nD τ)) = (dats m 0 c).arrAt w cfg0.N) :=
  Pipeline.θ_run_region_noSem_shared cfgs (dats m) () cellOf_inj (0 : Fin 1) winFacts₀0 emb₁ defs₀ Variants.none m ρ main
    (hbody := fun c => (body_obligation m c).loose)
    (hne := block_pos0) (harr := arr_whole0) (hstage := stage_whole0) (howed := fun _ _ => rfl)
    (u₀ := initOf (Pipeline.cells cfgs cellOf_inj) (Pipeline.launchToks cfgs cellOf_inj)) (hu₀ := BI.Entails.refl _)
    (V := V m)
    (hmain := fun c Q => by
      simp only [main, Prog.lift, Prog.bind_op, Prog.bind_ret]
      iintro ⟨Hk, Hb⟩; iapply Hk; iexact Hb)
    (hsplit := hsplit m)
    (X := fun _ => iprop(emp)) (Y := fun _ => iprop(emp)) (Z := fun _ => iprop(emp))
    (hX := fun c => by rw [unscopedRest0_eq]; iintro -; isplitr <;> iempintro)
    (hin := fun c => by
      rw [show (dats m 0 c).Φ 0 = Pipeline.scopedRest spec0 c from rfl]
      iintro ⟨-, H⟩; iexact H)
    (hout := fun c => by
      rw [show (dats m 0 c).Φ (Fin.last cfg0.N) = Pipeline.scopedRest spec0 c from rfl]
      iintro H; isplitr; · iempintro
      iexact H)
    (QY := fun _ _ => True)
    (hY := fun c s' => by
      iintro ⟨-, -, HSI⟩; imodintro
      isplitr; · ipureintro; trivial
      iexact HSI)
    (hQ := fun _ h c w => (h c).1 w)

/-- info: 'Cert.Kernel.Hand.run_main' depends on axioms: [propext, Classical.choice, Quot.sound] -/
#guard_msgs in #print axioms run_main

/-- The frame: the run ends with the two argument arrays as they were — each is an input window's array, never written. -/
theorem frame : θ_run (defs (F := F)) (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c 0).trans ((dats m 0 c).arrAt_in 0 rfl _), (h c 3).trans ((dats m 0 c).arrAt_in 3 rfl _)⟩)
    (run_main m ρ)

end Cert.Kernel.Hand

end
-- ==== Proof.KPay.lean ====
/-
  What the kernel body stores into the output block at a grid point, as one pure function of the four blocks it loads: the
  left halo, the centre tile, the right halo (each of the signal) and the tile of taps.
-/
import proofs.«413678_j46042049413166_3_alg».proof.Proof.Gen.KernelIdeal.Skeleton
import Idealize.ShloMosaic.Lib.Pipeline.FrameBody

noncomputable section

namespace Cert.KernelIdeal.Hand

open Idealize.ShloMosaic Cert.KernelIdeal Cert.KernelIdeal.Gen Cert.KernelIdeal.Facts₀

variable {F : FTy → Type} [FloatOps F] [Cert.KernelIdeal.Facts]

/-- A whole halo block. -/
abbrev rH : Rect S1x256x128 := Rect.unit (s := S1x256x128) ![0, 0, 0] S1x256x128.size Facts₀.inb_S1x256x128_S1x256x128_0_0_0
/-- A whole centre (or output) block. -/
abbrev rC : Rect S1x256x2048 := Rect.unit (s := S1x256x2048) ![0, 0, 0] S1x256x2048.size Facts₀.inb_S1x256x2048_S1x256x2048_0_0_0
/-- Tap k of the block of taps, over every weight channel and position. -/
abbrev rW0 : Rect S1x64x7x2048 := Rect.unit (s := S1x64x7x2048) ![0, 0, 0, 0] S1x64x1x2048.size Facts₀.inb_S1x64x7x2048_S1x64x1x2048_0_0_0_0
abbrev rW1 : Rect S1x64x7x2048 := Rect.unit (s := S1x64x7x2048) ![0, 0, 1, 0] S1x64x1x2048.size Facts₀.inb_S1x64x7x2048_S1x64x1x2048_0_0_1_0
abbrev rW2 : Rect S1x64x7x2048 := Rect.unit (s := S1x64x7x2048) ![0, 0, 2, 0] S1x64x1x2048.size Facts₀.inb_S1x64x7x2048_S1x64x1x2048_0_0_2_0
abbrev rW3 : Rect S1x64x7x2048 := Rect.unit (s := S1x64x7x2048) ![0, 0, 3, 0] S1x64x1x2048.size Facts₀.inb_S1x64x7x2048_S1x64x1x2048_0_0_3_0
abbrev rW4 : Rect S1x64x7x2048 := Rect.unit (s := S1x64x7x2048) ![0, 0, 4, 0] S1x64x1x2048.size Facts₀.inb_S1x64x7x2048_S1x64x1x2048_0_0_4_0
abbrev rW5 : Rect S1x64x7x2048 := Rect.unit (s := S1x64x7x2048) ![0, 0, 5, 0] S1x64x1x2048.size Facts₀.inb_S1x64x7x2048_S1x64x1x2048_0_0_5_0
abbrev rW6 : Rect S1x64x7x2048 := Rect.unit (s := S1x64x7x2048) ![0, 0, 6, 0] S1x64x1x2048.size Facts₀.inb_S1x64x7x2048_S1x64x1x2048_0_0_6_0

/-- The halo-extended tile the body assembles from the three signal blocks at grid point `i`. -/
def extended (i : grid0.Coords) (xl : Vec F S1x256x128 .f32) (xc : Vec F S1x256x2048 .f32) (xr : Vec F S1x256x128 .f32) : FVec F S256x2304 .f32 :=
  k0_pay3 i (View.ld xl rH) (View.ld xr rH) (View.ld xc rC)

/-- The value the body stores into the output block at grid point `i`, from the four loaded blocks. -/
def stored (i : grid0.Coords) (xl : Vec F S1x256x128 .f32) (xc : Vec F S1x256x2048 .f32) (xr : Vec F S1x256x128 .f32)
    (wt : Vec F S1x64x7x2048 .f32) : FVec F S1x256x2048 .f32 :=
  k0_pay1
    (k0_pay6 (k0_pay2 (View.ld xc rC)) (extended i xl xc xr)
      (k0_pay4 i (View.ld xl rH) (View.ld xr rH) (View.ld xc rC) (View.ld wt rW0) (View.ld wt rW1))
      (k0_pay5 i (View.ld xl rH) (View.ld xr rH) (View.ld xc rC))
      (View.ld wt rW2) (View.ld wt rW3) (View.ld wt rW4) (View.ld wt rW5))
    (k0_pay7 (extended i xl xc xr))
    (View.ld wt rW6)

/-- The output block after the body: its one store, which covers it. -/
def outBlock (i : grid0.Coords) (xl : Vec F S1x256x128 .f32) (xc : Vec F S1x256x2048 .f32) (xr : Vec F S1x256x128 .f32)
    (wt : Vec F S1x64x7x2048 .f32) : Vec F S1x256x2048 .f32 :=
  View.canon [⟨rC, stored i xl xc xr wt⟩]

end Cert.KernelIdeal.Hand

end
-- ==== Proof.KBody.lean ====
/-
  The kernel body as a triple: on whole staging buffers holding the left halo, the centre tile, the right halo and the taps,
  and an output buffer holding anything, the body runs to its end without a fault, leaves the four inputs as they were and
  the output buffer at the one value it stores there.
-/
import proofs.«413678_j46042049413166_3_alg».proof.Proof.KPay
import proofs.«413678_j46042049413166_3_alg».proof.Proof.Gen.KernelIdeal.Launch
import proofs.«413678_j46042049413166_3_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The one store fills the output block. -/
theorem cover_out (p0 : Vec F S1x256x2048 .f32) (y : S1x256x2048.Idx) :
    ∃ pc ∈ ([⟨rC, p0⟩] : List (View.Piece (Elt F) S1x256x2048 .f32)), y ∈ pc.1.set :=
  View.cover_of_tiled [⟨rC, p0⟩] S1x256x2048.size (by rfl) y

set_option maxHeartbeats 4000000 in
/-- The body's triple. -/
theorem sound_kernel (c : Dev nD) (E : Set ℕ) (i : grid0.Coords)
    (arg2 : Memref sig .tc .vmem S1x256x128 .f32) (harg2 : arg2.IsWhole) (arg3 : Memref sig .tc .vmem S1x256x2048 .f32) (harg3 : arg3.IsWhole)
    (arg4 : Memref sig .tc .vmem S1x256x128 .f32) (harg4 : arg4.IsWhole) (arg5 : Memref sig .tc .vmem S1x64x7x2048 .f32) (harg5 : arg5.IsWhole)
    (arg6 : Memref sig .tc .vmem S1x256x2048 .f32) (harg6 : arg6.IsWhole)
    (xl : Vec F S1x256x128 .f32) (xc : Vec F S1x256x2048 .f32) (xr : Vec F S1x256x128 .f32) (wt : Vec F S1x64x7x2048 .f32) (K : PUnit → sProp 𝕄) :
    iprop(owns (c : Thread nD τ) arg2 fullShare xl ∗ owns (c : Thread nD τ) arg3 fullShare xc ∗ owns (c : Thread nD τ) arg4 fullShare xr
        ∗ owns (c : Thread nD τ) arg5 fullShare wt ∗ (∃ d, owns (c : Thread nD τ) arg6 fullShare d)
        ∗ (iprop(owns (c : Thread nD τ) arg2 fullShare xl ∗ owns (c : Thread nD τ) arg3 fullShare xc ∗ owns (c : Thread nD τ) arg4 fullShare xr
            ∗ owns (c : Thread nD τ) arg5 fullShare wt ∗ owns (c : Thread nD τ) arg6 fullShare (outBlock i xl xc xr wt)) -∗ K ⟨⟩))
      ⊢ wp frame (wpE (defs₀ (F := F)) Variants.none c none) E (cc0__ska_kernel i arg2 harg2 arg3 harg3 arg4 harg4 arg5 harg5 arg6 harg6) K := by
  simp only [cc0__ska_kernel_eq_skeleton]; unfold cc0__ska_kernel_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover_out _)

end Cert.KernelIdeal.Hand

end
-- ==== Proof.KFrame.lean ====
/-
  The kernel's run. Three of its five windows — the left halo, the centre tile, the right halo — read ONE array, the signal,
  at different blocks; the fourth reads the taps and the fifth writes the result. The signal's buffer is therefore lent to
  the three windows at three shares that make up the whole, and given back whole at the end: nothing writes it. At every grid
  point each input window's staging buffer holds its block of its array as the launch found it, and the body leaves in the
  output window's staging buffer the one value it stores there.
-/
import proofs.«413678_j46042049413166_3_alg».proof.Proof.KBody
import Idealize.ShloMosaic.Lib.Pipeline.Launch

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays as the region finds them, and the windows' blocks -/

/-- Core `c`'s buffers when the region is entered: as launched (the program is the region alone). -/
abbrev V (c : Dev nD) (b : Ref sig .tc) : Buf (Elt F) ((c : Thread nD τ).loc b) := m ((c : Thread nD τ).loc b)

/-- Window `w`'s block at point `t`, read off its array. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The proof data -/

/-- The share of its array each input window holds: the signal's three windows a half and two quarters, the taps' window
    the whole. -/
def shareOf : Fin cfg0.W → PosShare TreeShare
  | ⟨0, _⟩ => fullShare.left
  | ⟨1, _⟩ => fullShare.right.left
  | ⟨2, _⟩ => fullShare.right.right
  | ⟨3, _⟩ => fullShare
  | ⟨4, _⟩ => fullShare

/-- The pipeline's proof data on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outBlock (grid0.coords t) (iblk m c 0 t) (iblk m c 1 t) (iblk m c 2 t) (iblk m c 3 t)
  Φ _ := Pipeline.scopedRest (Ix := Unit) (Name := ℕ) (U := UR sig nD τ) (Lvl := ℕ) (Val := Elt F) spec0 c
  q := shareOf
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) :
    (dats m 0 c).after 4 t = outBlock (grid0.coords t) (iblk m c 0 t) (iblk m c 1 t) (iblk m c 2 t) (iblk m c 3 t) := by dsimp only [dats]

/-- An input window's current staging buffer holds its block at every point. -/
theorem before0 (c : Dev nD) (t : Fin cfg0.N) (d) : (dats m 0 c).before 0 t d = iblk m c 0 t :=
  ((dats m 0 c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem before1 (c : Dev nD) (t : Fin cfg0.N) (d) : (dats m 0 c).before 1 t d = iblk m c 1 t :=
  ((dats m 0 c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
theorem before2 (c : Dev nD) (t : Fin cfg0.N) (d) : (dats m 0 c).before 2 t d = iblk m c 2 t :=
  ((dats m 0 c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)
theorem before3 (c : Dev nD) (t : Fin cfg0.N) (d) : (dats m 0 c).before 3 t d = iblk m c 3 t :=
  ((dats m 0 c).before_in_eq_fetched 3 rfl (fun _ => rfl) (fun _ _ _ => rfl) (fun t => by rw [after3]; unfold Dat.blockOf iblk; rw [A_eq]; try rfl) t d).trans
    (by unfold Dat.fetched Dat.blockOf iblk; rw [A_eq]; try rfl)

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).Φ t.succ = (dats m 0 c).Φ t.castSucc from rfl,
    show (dats m 0 c).owesAt () t.succ = (dats m 0 c).owesAt () t.castSucc from rfl,
    after0, after1, after2, after3, after4]
  iintro ⟨HΦ, Ho, ⟨%d0, H0⟩, ⟨%d1, H1⟩, ⟨%d2, H2⟩, ⟨%d3, H3⟩, ⟨%d4, H4⟩⟩
  iapply (sound_kernel c Set.univ (grid0.coords t) _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation (c : Dev nD) : BodyObligation (dats (F := F) m 0 c) (defs₀ (F := F)) Variants.none () Set.univ := fun t => by
  rw [bigSep_W0, bigSep_W0]
  exact sound_body m c t

end Cert.KernelIdeal.Hand

end
-- ==== Proof.KRun.lean ====
/-
  The kernel's run through the launch: the signal's buffer, whole at entry, is dealt to its three reading windows as a half
  and two quarters of the full share; the taps' and the result's buffers go whole to their one window each.
-/
import proofs.«413678_j46042049413166_3_alg».proof.Proof.KFrame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The buffers behind the five windows are three: the signal's, the taps' and the result's. -/
theorem bigSep_arrs {M : Type} [URA M] (Φ : Ref sig .tc → sProp M) :
    bigSep (Finset.univ.image (Pipeline.arrRef spec0)) Φ = iprop(Φ main_arg0 ∗ Φ main_arg1 ∗ Φ main_v0) :=
  bigSep_eq_bigSepL_of_eq [main_arg0, main_arg1, main_v0] (by decide) (by decide) Φ

/-- The three buffers behind the five windows, each whole at its launch contents, are the windows' arrays at their shares. -/
theorem hsplit (c : Dev nD) :
    (Pipeline.arrBufs (Ix := Unit) (Name := ℕ) (U := UR sig nD τ) (Lvl := ℕ) spec0 c (V m c) : sProp 𝕄)
      ⊢ (dats m 0 c).arrays (fun w => (dats m 0 c).arrAt w 0) := by
  unfold Pipeline.arrBufs Dat.arrays
  rw [bigSep_arrs, bigSep_W0]
  have s0 : (dats m 0 c).share 0 = fullShare.left := rfl
  have s1 : (dats m 0 c).share 1 = fullShare.right.left := rfl
  have s2 : (dats m 0 c).share 2 = fullShare.right.right := rfl
  have s3 : (dats m 0 c).share 3 = fullShare := rfl
  have s4 : (dats m 0 c).share 4 = fullShare := rfl
  have a0 : (dats m 0 c).arrAt 0 0 = V m c main_arg0 := rfl
  have a1 : (dats m 0 c).arrAt 1 0 = V m c main_arg0 := rfl
  have a2 : (dats m 0 c).arrAt 2 0 = V m c main_arg0 := rfl
  have a3 : (dats m 0 c).arrAt 3 0 = V m c main_arg1 := rfl
  have a4 : (dats m 0 c).arrAt 4 0 = V m c main_v0 := rfl
  rw [s0, s1, s2, s3, s4]
  beta_reduce
  rw [a0, a1, a2, a3, a4, (arr_whole0 0).set_eq_univ, (arr_whole0 3).set_eq_univ, (arr_whole0 4).set_eq_univ]
  have hx : (c.tc.loc main_arg0 ↦{fullShare} V m c main_arg0 : sProp 𝕄)
      ⊢ iprop((c.tc.loc main_arg0 ↦{fullShare.left} V m c main_arg0) ∗ (c.tc.loc main_arg0 ↦{fullShare.right.left} V m c main_arg0)
          ∗ (c.tc.loc main_arg0 ↦{fullShare.right.right} V m c main_arg0)) := by
    refine (pointsTo_share (PosShare.mem_left_op_right fullShare)).1.trans ?_
    exact sep_mono .rfl (pointsTo_share (PosShare.mem_left_op_right fullShare.right)).1
  iintro ⟨Hx, Hw, Ho⟩
  ihave Hx3 := hx $$ Hx
  icases Hx3 with ⟨Hx0, Hx1, Hx2⟩
  isplitl [Hx0]; · iexact Hx0
  isplitl [Hx1]; · iexact Hx1
  isplitl [Hx2]; · iexact Hx2
  isplitl [Hw]; · iexact Hw
  iexact Ho

/-! ## The run -/

-- the launch theorem's implicit arguments are found by unifying its conclusion with this one, which takes unfolding plain
-- definitions in a metavariable's type
set_option backward.isDefEq.respectTransparency.types false in
/-- At the compiled mesh, for any float values, from any memory with zero counters: every weakly fair execution of the
    program terminates without a fault, and every final state has each window's array at what the write-backs of all the
    grid points leave of its launch contents. -/
theorem run_main : θ_run (defs (F := F)) (onTc (τ := τ) (main (F := F))) ⟨m, fun _ => 0, ρ⟩ (fun r => ∀ (c : Dev nD) (w : Fin cfg0.W),
    r.2.mem ((cfg0.win w).arr.view.loc (c : Thread nD τ)) = (dats m 0 c).arrAt w cfg0.N) :=
  Pipeline.θ_run_region_noSem_shared cfgs (dats m) () cellOf_inj (0 : Fin 1) winFacts₀0 emb₁ defs₀ Variants.none m ρ main
    (hbody := fun c => (body_obligation m c).loose)
    (hne := block_pos0) (harr := arr_whole0) (hstage := stage_whole0) (howed := fun _ _ => rfl)
    (u₀ := initOf (Pipeline.cells cfgs cellOf_inj) (Pipeline.launchToks cfgs cellOf_inj)) (hu₀ := BI.Entails.refl _)
    (V := V m)
    (hmain := fun c Q => by
      simp only [main, Prog.lift, Prog.bind_op, Prog.bind_ret]
      iintro ⟨Hk, Hb⟩; iapply Hk; iexact Hb)
    (hsplit := hsplit m)
    (X := fun _ => iprop(emp)) (Y := fun _ => iprop(emp)) (Z := fun _ => iprop(emp))
    (hX := fun c => by rw [unscopedRest0_eq]; iintro -; isplitr <;> iempintro)
    (hin := fun c => by
      rw [show (dats m 0 c).Φ 0 = Pipeline.scopedRest spec0 c from rfl]
      iintro ⟨-, H⟩; iexact H)
    (hout := fun c => by
      rw [show (dats m 0 c).Φ (Fin.last cfg0.N) = Pipeline.scopedRest spec0 c from rfl]
      iintro H; isplitr; · iempintro
      iexact H)
    (QY := fun _ _ => True)
    (hY := fun c s' => by
      iintro ⟨-, -, HSI⟩; imodintro
      isplitr; · ipureintro; trivial
      iexact HSI)
    (hQ := fun _ h c w => (h c).1 w)

/-- info: 'Cert.KernelIdeal.Hand.run_main' depends on axioms: [propext, Classical.choice, Quot.sound] -/
#guard_msgs in #print axioms run_main

/-- The frame: the run ends with the two argument arrays as they were — each is an input window's array, never written. -/
theorem frame : θ_run (defs (F := F)) (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c 0).trans ((dats m 0 c).arrAt_in 0 rfl _), (h c 3).trans ((dats m 0 c).arrAt_in 3 rfl _)⟩)
    (run_main m ρ)

end Cert.KernelIdeal.Hand

end
-- ==== Proof.Spec.lean ====
/-
  The function both programs compute. For a batch b, a channel c and a position l,
      out[b, c, l] = Σ_{k < 7}  xpad[b, c, l + k] · w[b, c mod 64, k, l],
  where xpad is the row x[b, c, ·] extended by three zeros on each side (so xpad[j] = x[j - 3] for
  3 ≤ j < 8195 and 0 otherwise): a seven-tap correlation along the last axis whose taps vary with the
  position, the 256 channels sharing the 64 weight channels by residue.
-/
import Idealize.ShloMosaic.PureOps.Ideal
import Idealize.ShloMosaic.Lib.ValueIdx

noncomputable section

namespace Cert.Conv

open Idealize.ShloMosaic Idealize.ShloMosaic.ValueIdx
open scoped BigOperators

/-- The signal's shape, [8, 256, 8192]. -/
abbrev SX : Shape := ⟨3, ![8, 256, 8192]⟩
/-- The taps' shape, [8, 64, 7, 8192]. -/
abbrev SW : Shape := ⟨4, ![8, 64, 7, 8192]⟩

/-- Entry `j` of row (b, c) extended by three zeros on each side: the row's entry `j - 3` when that is a position of
    the row, and zero in the six added places. -/
def padded (x : SX.Idx → EReal) (b : Fin 8) (c : Fin 256) (j : Nat) : EReal :=
  if h : 3 ≤ j ∧ j < 8195 then x (ix3 b c ⟨j - 3, by omega⟩) else 0

/-- The weight channel of channel `c`: its residue mod 64. -/
def grp (c : Fin 256) : Fin 64 := ⟨c.val % 64, Nat.mod_lt _ (by decide)⟩

/-- The result at (b, c, l): the seven products of the extended row at l, …, l + 6 with the taps at l. -/
def convAt (x : SX.Idx → EReal) (w : SW.Idx → EReal) (b : Fin 8) (c : Fin 256) (l : Fin 8192) : EReal :=
  ∑ k : Fin 7, padded x b c (l.val + k.val) * w (ix4 b (grp c) k l)

/-- The whole result array. -/
def conv (x : SX.Idx → EReal) (w : SW.Idx → EReal) : SX.Idx → EReal :=
  fun i => convAt x w (i 0) (i 1) (i 2)

end Cert.Conv

end
-- ==== Proof.KExt.lean ====
/-
  The halo-extended tile at a grid point, entry by entry over the extended reals: positions 0–127 are the left halo (zero
  at the first tile of a row), 128–2175 the centre tile, 2176–2303 the right halo (zero at the last tile).
-/
import proofs.«413678_j46042049413166_3_alg».proof.Proof.KPay
import proofs.«413678_j46042049413166_3_alg».proof.Proof.Spec
import Idealize.ShloMosaic.Lib.ValueIdx

noncomputable section

namespace Cert.KernelIdeal.Hand

open Idealize.ShloMosaic Idealize.ShloMosaic.ValueIdx Cert.KernelIdeal Cert.KernelIdeal.Gen Cert.KernelIdeal.Facts₀

variable [Cert.KernelIdeal.Facts]

/-- Entry (c, p) of the extended tile at grid point `i`, for p < 2304. -/
def extAt (i : grid0.Coords) (xl : Vec Ideal S1x256x128 .f32) (xc : Vec Ideal S1x256x2048 .f32) (xr : Vec Ideal S1x256x128 .f32)
    (c : Fin 256) (p : Nat) : EReal :=
  if h1 : p < 128 then (if (i 1).val = 0 then 0 else xl (ix3 (0 : Fin 1) c ⟨p, h1⟩))
  else if h2 : p < 2176 then xc (ix3 (0 : Fin 1) c ⟨p - 128, by omega⟩)
  else if h3 : p < 2304 then (if (i 1).val = 3 then 0 else xr (ix3 (0 : Fin 1) c ⟨p - 2176, by omega⟩))
  else 0

end Cert.KernelIdeal.Hand

end
-- ==== Proof.KPayApply.lean ====
/-
  The value the body stores, read at an index over the extended reals: at (c, l) of the output block it is the sum over the
  seven taps k of the extended tile at position 125 + l + k times tap k of weight channel c mod 64 at position l.

  The body builds seven windows of the extended tile [256, 2304]: window k is the tile rotated along its columns and cut at
  columns 128 … 2175. A rotation by s reads column (p − s) mod 2304, so the windows rotated by 3, 2, 1 read columns
  125 + l, 126 + l, 127 + l; the centre tile itself is column 128 + l; and the windows rotated by 2303, 2302, 2301 read
  columns 129 + l, 130 + l, 131 + l (no column wraps: 131 + l < 2304). Each window is read as [4, 64, 2048], channel
  c = r·64 + g being (r, g), multiplied by its row of taps laid over the four groups r, and the seven products are added
  to a zero in order.
-/
import proofs.«413678_j46042049413166_3_alg».proof.Proof.KExt
import Idealize.ShloMosaic.PureOps.Ideal.Laws
import Idealize.ShloMosaic.Lib.Pipeline.Value
import Idealize.ShloMosaic.Lib.ValueLayout
import Idealize.ShloMosaic.Lib.KernelVsHost

noncomputable section

namespace Cert.KernelIdeal.Hand

open Idealize.ShloMosaic Idealize.ShloMosaic.ValueIdx Cert.KernelIdeal Cert.KernelIdeal.Gen Cert.KernelIdeal.Facts₀
open scoped BigOperators

variable [Cert.KernelIdeal.Facts]

/-! ## The layout operations of the body, each read at an index -/

section Ops
variable {α : Type}

/-- Channel r·64 + g of the 256, for r < 4 and g < 64. -/
abbrev chan (r : Fin 4) (g : Fin 64) : Fin 256 := ⟨r.val * 64 + g.val, by omega⟩

/-- [256, 2048] read as [4, 64, 2048]: entry (r, g, l) is entry (r·64 + g, l). -/
theorem cast_split_apply (x : S256x2048.Idx → α) (h : S256x2048.ShapeCasts S4x64x2048) (r : Fin 4) (g : Fin 64) (l : Fin 2048) :
    shapeCast S4x64x2048 x h (ix3 r g l) = x (ix2 (chan r g) l) := by
  refine shapeCast_apply x h (ix3 r g l) (ix2 (chan r g) l) ?_
  rw [Shape.rowMajor_val_two, Shape.rowMajor_val_three]
  show (r.val * 64 + g.val) * 2048 + l.val = (r.val * 64 + g.val) * 2048 + l.val
  rfl

/-- [256, 2304] cut at columns 128 … 2175 and read as [4, 64, 2048]: entry (r, g, l) is entry (r·64 + g, 128 + l). -/
theorem slicecast_apply (X : S256x2304.Idx → α) (hs : S256x2304.Slices ![0, 128] S256x2048) (hc : S256x2048.ShapeCasts S4x64x2048)
    (r : Fin 4) (g : Fin 64) (l : Fin 2048) :
    shapeCast S4x64x2048 (extractStridedSlice S256x2048 ![0, 128] X hs) hc (ix3 r g l)
      = X (ix2 (chan r g) (⟨128 + l.val, by omega⟩ : Fin 2304)) := by
  refine (cast_split_apply _ hc r g l).trans ?_
  exact extractStridedSlice_apply ![0, 128] _ hs (ix2 (chan r g) l)
    (ix2 (chan r g) (⟨128 + l.val, by omega⟩ : Fin 2304)) (by
      intro a
      match a with
      | ⟨0, _⟩ => show r.val * 64 + g.val = 0 + (r.val * 64 + g.val); omega
      | ⟨1, _⟩ => rfl)

/-- The tile rotated along its columns by the amount `sb`: entry (c, q) is the tile's entry (c, p), p the column q moved
    back by the amount around the end. -/
theorem rotate_apply (E : S256x2304.Idx → α) (sb : BitVec 32) (hr : S256x2304.Rotates 1 none) (c : Fin 256) (q p : Fin 2304)
    (hp : p.val = (q.val + 2304 - sb.toNat % 2304) % 2304) :
    dynamicRotate 1 sb none E hr (ix2 c q) = E (ix2 c p) :=
  dynamicRotate_apply (1 : Fin 2) sb E hr (ix2 c q) (ix2 c p) (by
    intro b
    match b with
    | ⟨0, _⟩ => rfl
    | ⟨1, _⟩ => show p.val = (q.val + 2304 - sb.toNat % 2304) % 2304; exact hp)

/-- A window of the extended tile: rotated by the amount `sb`, cut at columns 128 … 2175 and read as [4, 64, 2048], entry
    (r, g, l) is the tile's entry (r·64 + g, p), p the column 128 + l moved back by the amount around the end. -/
theorem window_apply (E : S256x2304.Idx → α) (sb : BitVec 32) (hr : S256x2304.Rotates 1 none)
    (hs : S256x2304.Slices ![0, 128] S256x2048) (hc : S256x2048.ShapeCasts S4x64x2048)
    (r : Fin 4) (g : Fin 64) (l : Fin 2048) (p : Fin 2304)
    (hp : p.val = (128 + l.val + 2304 - sb.toNat % 2304) % 2304) :
    shapeCast S4x64x2048 (extractStridedSlice S256x2048 ![0, 128] (dynamicRotate 1 sb none E hr) hs) hc (ix3 r g l)
      = E (ix2 (chan r g) p) :=
  (slicecast_apply _ hs hc r g l).trans (rotate_apply E sb hr (chan r g) _ p hp)

/-- A row of taps [1, 64, 1, 2048] read as [64, 2048], then as [1, 64, 2048], and laid over the four channel groups:
    entry (r, g, l) is the row's entry (0, g, 0, l). -/
theorem tap_apply (W : S1x64x1x2048.Idx → α) (h1 : S1x64x1x2048.ShapeCasts S64x2048) (h2 : S64x2048.ShapeCasts S1x64x2048)
    (hb : S1x64x2048.Broadcasts S4x64x2048) (r : Fin 4) (g : Fin 64) (l : Fin 2048) :
    broadcastTo S4x64x2048 (shapeCast S1x64x2048 (shapeCast S64x2048 W h1) h2) hb (ix3 r g l)
      = W (ix4 (0 : Fin 1) g (0 : Fin 1) l) := by
  refine (broadcastTo_apply _ hb (ix3 r g l) (ix3 (0 : Fin 1) g l) (by
    intro a
    match a with
    | ⟨0, _⟩ => rfl
    | ⟨1, _⟩ => rfl
    | ⟨2, _⟩ => rfl)).trans ?_
  refine (shapeCast_apply _ h2 (ix3 (0 : Fin 1) g l) (ix2 g l) (by
    rw [Shape.rowMajor_val_two, Shape.rowMajor_val_three]
    show g.val * 2048 + l.val = (0 * 64 + g.val) * 2048 + l.val
    omega)).trans ?_
  exact shapeCast_apply _ h1 (ix2 g l) (ix4 (0 : Fin 1) g (0 : Fin 1) l) (by
    rw [Shape.rowMajor_val_four, Shape.rowMajor_val_two]
    show ((0 * 64 + g.val) * 1 + 0) * 2048 + l.val = g.val * 2048 + l.val
    omega)

/-- The load of tap `o` of the block of taps, at (0, g, 0, l), reads the block at (0, g, o, l). -/
theorem ld_tap_apply {Val : EltTy → Type} {e : EltTy} (wt : S1x64x7x2048.Idx → Val e) (o : Nat) (ho : o < 7)
    (inb : ∀ a, (![0, 0, o, 0] : Fin 4 → Nat) a + S1x64x1x2048.size a ≤ S1x64x7x2048.size a) (g : Fin 64) (l : Fin 2048) :
    View.ld wt (Rect.unit (s := S1x64x7x2048) ![0, 0, o, 0] S1x64x1x2048.size inb) (ix4 (0 : Fin 1) g (0 : Fin 1) l)
      = wt (ix4 (0 : Fin 1) g (⟨o, ho⟩ : Fin 7) l) := by
  show wt _ = wt _
  refine congrArg wt (funext fun a => Fin.ext ?_)
  match a with
  | ⟨0, _⟩ => rfl
  | ⟨1, _⟩ => show 0 + 1 * g.val = g.val; omega
  | ⟨2, _⟩ => show o + 1 * 0 = o; omega
  | ⟨3, _⟩ => show 0 + 1 * l.val = l.val; omega

/-- [4, 64, 2048] read as [256, 2048] and then as [1, 256, 2048]: entry (0, c, l) is entry (c / 64, c mod 64, l). -/
theorem cast_merge_apply (V : S4x64x2048.Idx → α) (h1 : S4x64x2048.ShapeCasts S256x2048) (h2 : S256x2048.ShapeCasts S1x256x2048)
    (c : Fin 256) (l : Fin 2048) :
    shapeCast S1x256x2048 (shapeCast S256x2048 V h1) h2 (ix3 (0 : Fin 1) c l)
      = V (ix3 (⟨c.val / 64, by omega⟩ : Fin 4) (⟨c.val % 64, by omega⟩ : Fin 64) l) := by
  refine (shapeCast_apply _ h2 (ix3 (0 : Fin 1) c l) (ix2 c l) (by
    rw [Shape.rowMajor_val_two, Shape.rowMajor_val_three]
    show c.val * 2048 + l.val = (0 * 256 + c.val) * 2048 + l.val
    omega)).trans ?_
  exact shapeCast_apply _ h1 (ix2 c l) (ix3 (⟨c.val / 64, by omega⟩ : Fin 4) (⟨c.val % 64, by omega⟩ : Fin 64) l) (by
    rw [Shape.rowMajor_val_three, Shape.rowMajor_val_two]
    show (c.val / 64 * 64 + c.val % 64) * 2048 + l.val = c.val * 2048 + l.val
    omega)

end Ops

/-! ## The extended tile, entry by entry -/

section Ext
variable {α : Type}

/-- The three pieces [256, 128] | [256, 2048] | [256, 128] side by side: column p of row c is in the piece whose span holds p. -/
theorem concat3_apply (A : S256x128.Idx → α) (B : S256x2048.Idx → α) (C : S256x128.Idx → α)
    (h : Shape.Concatenates [S256x128, S256x2048, S256x128] S256x2304 1) (c : Fin 256) (p : Fin 2304) :
    concatenate S256x2304 1 [⟨S256x128, A⟩, ⟨S256x2048, B⟩, ⟨S256x128, C⟩] h (ix2 c p)
      = if h1 : p.val < 128 then A (ix2 c ⟨p.val, h1⟩)
        else if h2 : p.val < 2176 then B (ix2 c ⟨p.val - 128, by omega⟩)
        else C (ix2 c ⟨p.val - 2176, by omega⟩) := by
  by_cases h1 : p.val < 128
  · rw [dif_pos h1]
    exact concatenate_apply_piece (t := S256x2304) (1 : Fin 2) [⟨S256x128, A⟩, ⟨S256x2048, B⟩, ⟨S256x128, C⟩] h (ix2 c p) 0 (by show (0 : Nat) < 3; omega) S256x128 A rfl rfl 0 rfl
      (ix2 c (⟨p.val, h1⟩ : Fin 128)) (by
        intro b hb
        match b with
        | ⟨0, _⟩ => rfl
        | ⟨1, _⟩ => exact absurd rfl hb) (by show 0 + p.val = p.val; omega)
  · rw [dif_neg h1]
    by_cases h2 : p.val < 2176
    · rw [dif_pos h2]
      exact concatenate_apply_piece (t := S256x2304) (1 : Fin 2) [⟨S256x128, A⟩, ⟨S256x2048, B⟩, ⟨S256x128, C⟩] h (ix2 c p) 1 (by show (1 : Nat) < 3; omega) S256x2048 B rfl rfl 128 rfl
        (ix2 c (⟨p.val - 128, by omega⟩ : Fin 2048)) (by
          intro b hb
          match b with
          | ⟨0, _⟩ => rfl
          | ⟨1, _⟩ => exact absurd rfl hb) (by show 128 + (p.val - 128) = p.val; omega)
    · rw [dif_neg h2]
      exact concatenate_apply_piece (t := S256x2304) (1 : Fin 2) [⟨S256x128, A⟩, ⟨S256x2048, B⟩, ⟨S256x128, C⟩] h (ix2 c p) 2 (by show (2 : Nat) < 3; omega) S256x128 C rfl rfl 2176 rfl
        (ix2 c (⟨p.val - 2176, by omega⟩ : Fin 128)) (by
          intro b hb
          match b with
          | ⟨0, _⟩ => rfl
          | ⟨1, _⟩ => exact absurd rfl hb) (by show 2176 + (p.val - 2176) = p.val; omega)

/-- A select on "grid coordinate n is m", both below 4, is the `if` on the numbers. -/
theorem select_coord (n m : Nat) (hn : n < 4) (hm : m < 4) (A B : α) :
    Scalar.select (Scalar.cmpi .eq (BitVec.ofNat 32 n) (BitVec.ofNat 32 m)) A B = if n = m then A else B := by
  interval_cases n <;> interval_cases m <;> rfl

end Ext

/-- The whole-block rectangles load the blocks. -/
theorem ld_rH (x : Vec Ideal S1x256x128 .f32) : View.ld x rH = x :=
  View.ld_unit_zero (funext fun a => by match a with | ⟨0, _⟩ => rfl | ⟨1, _⟩ => rfl | ⟨2, _⟩ => rfl) _ x
theorem ld_rC (x : Vec Ideal S1x256x2048 .f32) : View.ld x rC = x :=
  View.ld_unit_zero (funext fun a => by match a with | ⟨0, _⟩ => rfl | ⟨1, _⟩ => rfl | ⟨2, _⟩ => rfl) _ x

/-- The extended tile as the body assembles it. -/
theorem extended_eq (i : grid0.Coords) (xl : Vec Ideal S1x256x128 .f32) (xc : Vec Ideal S1x256x2048 .f32) (xr : Vec Ideal S1x256x128 .f32) :
    extended (F := Ideal) i xl xc xr
      = concatenate S256x2304 1
          [⟨S256x128, Scalar.select (Scalar.cmpi .eq (BitVec.ofNat 32 (i 1).val) 0#32)
              (broadcast S256x128 (Scalar.ofBits (F := Ideal) .f32 0x00000000#32))
              (shapeCast S256x128 (View.ld xl rH) Gen.shapeCasts_S1x256x128_S256x128)⟩,
           ⟨S256x2048, shapeCast S256x2048 (View.ld xc rC) Gen.shapeCasts_S1x256x2048_S256x2048⟩,
           ⟨S256x128, Scalar.select (Scalar.cmpi .eq (BitVec.ofNat 32 (i 1).val) 3#32)
              (broadcast S256x128 (Scalar.ofBits (F := Ideal) .f32 0x00000000#32))
              (shapeCast S256x128 (View.ld xr rH) Gen.shapeCasts_S1x256x128_S256x128)⟩]
          Gen.concatenates_S256x128_S256x2048_S256x128_S256x2304_d1 := rfl

/-- Entry (c, p) of the extended tile. -/
theorem extended_apply (i : grid0.Coords) (xl : Vec Ideal S1x256x128 .f32) (xc : Vec Ideal S1x256x2048 .f32) (xr : Vec Ideal S1x256x128 .f32)
    (c : Fin 256) (p : Fin 2304) :
    extended (F := Ideal) i xl xc xr (ix2 c p) = extAt i xl xc xr c p.val := by
  have hi : (i 1).val < 4 := (i 1).isLt
  have hp : p.val < 2304 := p.isLt
  rw [extended_eq, concat3_apply, ld_rH, ld_rH, ld_rC]
  unfold extAt
  by_cases h1 : p.val < 128
  · rw [dif_pos h1, dif_pos h1, select_coord _ 0 hi (by omega)]
    by_cases h0 : (i 1).val = 0
    · rw [if_pos h0, if_pos h0]; exact Ideal.ofBits_zero_f32
    · rw [if_neg h0, if_neg h0]; exact shapeCast_1ab_ab_apply xl _ c ⟨p.val, h1⟩
  · rw [dif_neg h1, dif_neg h1]
    by_cases h2 : p.val < 2176
    · rw [dif_pos h2, dif_pos h2]; exact shapeCast_1ab_ab_apply xc _ c ⟨p.val - 128, by omega⟩
    · rw [dif_neg h2, dif_neg h2, dif_pos hp, select_coord _ 3 hi (by omega)]
      by_cases h3 : (i 1).val = 3
      · rw [if_pos h3, if_pos h3]; exact Ideal.ofBits_zero_f32
      · rw [if_neg h3, if_neg h3]; exact shapeCast_1ab_ab_apply xr _ c ⟨p.val - 2176, by omega⟩

/-! ## The payloads at an index -/

section Pay

/-- The amounts of the six rotations, as numbers. -/
theorem toNat_3 : (3#32 : BitVec 32).toNat = 3 := rfl
theorem toNat_2 : (2#32 : BitVec 32).toNat = 2 := rfl
theorem toNat_1 : (1#32 : BitVec 32).toNat = 1 := rfl
theorem toNat_2303 : (2303#32 : BitVec 32).toNat = 2303 := rfl
theorem toNat_2302 : (2302#32 : BitVec 32).toNat = 2302 := rfl
theorem toNat_2301 : (2301#32 : BitVec 32).toNat = 2301 := rfl

/-- Taps 0 and 1 added to zero. -/
theorem pay4_apply (i : grid0.Coords) (v2 v6 : Vec Ideal S1x256x128 .f32) (v10 : Vec Ideal S1x256x2048 .f32)
    (W0 W1 : Vec Ideal S1x64x1x2048 .f32) (r : Fin 4) (g : Fin 64) (l : Fin 2048) :
    k0_pay4 (F := Ideal) i v2 v6 v10 W0 W1 (ix3 r g l)
      = 0 + k0_pay3 i v2 v6 v10 (ix2 (chan r g) (⟨125 + l.val + 0, by omega⟩ : Fin 2304)) * W0 (ix4 (0 : Fin 1) g (0 : Fin 1) l)
          + k0_pay3 i v2 v6 v10 (ix2 (chan r g) (⟨125 + l.val + 1, by omega⟩ : Fin 2304)) * W1 (ix4 (0 : Fin 1) g (0 : Fin 1) l) := by
  unfold k0_pay4
  simp only [addf_apply, mulf_apply, broadcast_apply, tap_apply]
  rw [window_apply _ 3#32 _ _ _ r g l (⟨125 + l.val + 0, by omega⟩ : Fin 2304) (by rw [toNat_3]; show 125 + l.val + 0 = _; omega),
    window_apply _ 2#32 _ _ _ r g l (⟨125 + l.val + 1, by omega⟩ : Fin 2304) (by rw [toNat_2]; show 125 + l.val + 1 = _; omega),
    Ideal.ofBits_def, Ideal.ofBits_zero_f32]

/-- Taps 2 to 5 added to what taps 0 and 1 gave: tap 2 through the tile already rotated by one, tap 3 through the centre
    tile itself, taps 4 and 5 through the extended tile. -/
theorem pay6_apply (C : FVec Ideal S256x2048 .f32) (E : FVec Ideal S256x2304 .f32) (acc : FVec Ideal S4x64x2048 .f32)
    (E1 : FVec Ideal S256x2304 .f32) (W2 W3 W4 W5 : Vec Ideal S1x64x1x2048 .f32) (r : Fin 4) (g : Fin 64) (l : Fin 2048) :
    k0_pay6 (F := Ideal) C E acc E1 W2 W3 W4 W5 (ix3 r g l)
      = acc (ix3 r g l)
          + E1 (ix2 (chan r g) (⟨128 + l.val, by omega⟩ : Fin 2304)) * W2 (ix4 (0 : Fin 1) g (0 : Fin 1) l)
          + C (ix2 (chan r g) l) * W3 (ix4 (0 : Fin 1) g (0 : Fin 1) l)
          + E (ix2 (chan r g) (⟨125 + l.val + 4, by omega⟩ : Fin 2304)) * W4 (ix4 (0 : Fin 1) g (0 : Fin 1) l)
          + E (ix2 (chan r g) (⟨125 + l.val + 5, by omega⟩ : Fin 2304)) * W5 (ix4 (0 : Fin 1) g (0 : Fin 1) l) := by
  unfold k0_pay6
  simp only [addf_apply, mulf_apply, tap_apply]
  rw [window_apply _ 2303#32 _ _ _ r g l (⟨125 + l.val + 4, by omega⟩ : Fin 2304) (by rw [toNat_2303]; show 125 + l.val + 4 = _; omega),
    window_apply _ 2302#32 _ _ _ r g l (⟨125 + l.val + 5, by omega⟩ : Fin 2304) (by rw [toNat_2302]; show 125 + l.val + 5 = _; omega),
    slicecast_apply, cast_split_apply]

/-- Tap 6's window of the extended tile. -/
theorem pay7_apply (E : FVec Ideal S256x2304 .f32) (r : Fin 4) (g : Fin 64) (l : Fin 2048) :
    k0_pay7 (F := Ideal) E (ix3 r g l) = E (ix2 (chan r g) (⟨125 + l.val + 6, by omega⟩ : Fin 2304)) := by
  unfold k0_pay7
  exact window_apply E 2301#32 _ _ _ r g l (⟨125 + l.val + 6, by omega⟩ : Fin 2304) (by rw [toNat_2301]; show 125 + l.val + 6 = _; omega)

/-- The tile rotated by one, at column 128 + l, is the extended tile at 125 + l + 2. -/
theorem pay5_apply (i : grid0.Coords) (v2 v6 : Vec Ideal S1x256x128 .f32) (v10 : Vec Ideal S1x256x2048 .f32)
    (c : Fin 256) (l : Fin 2048) :
    k0_pay5 (F := Ideal) i v2 v6 v10 (ix2 c (⟨128 + l.val, by omega⟩ : Fin 2304))
      = k0_pay3 i v2 v6 v10 (ix2 c (⟨125 + l.val + 2, by omega⟩ : Fin 2304)) := by
  unfold k0_pay5
  exact rotate_apply _ 1#32 _ c _ (⟨125 + l.val + 2, by omega⟩ : Fin 2304) (by rw [toNat_1]; show 125 + l.val + 2 = (128 + l.val + 2304 - 1 % 2304) % 2304; omega)

/-- The last tap added, and the two casts back to the block's shape. -/
theorem pay1_apply (acc T : FVec Ideal S4x64x2048 .f32) (W6 : Vec Ideal S1x64x1x2048 .f32) (c : Fin 256) (l : Fin 2048) :
    k0_pay1 (F := Ideal) acc T W6 (ix3 (0 : Fin 1) c l)
      = acc (ix3 (⟨c.val / 64, by omega⟩ : Fin 4) (⟨c.val % 64, by omega⟩ : Fin 64) l)
          + T (ix3 (⟨c.val / 64, by omega⟩ : Fin 4) (⟨c.val % 64, by omega⟩ : Fin 64) l)
            * W6 (ix4 (0 : Fin 1) (⟨c.val % 64, by omega⟩ : Fin 64) (0 : Fin 1) l) := by
  unfold k0_pay1
  simp only [cast_merge_apply, addf_apply, mulf_apply, tap_apply]

end Pay

/-! ## The stored value -/

section Main

/-- The centre block read as [256, 2048]. -/
theorem pay2_apply (v10 : Vec Ideal S1x256x2048 .f32) (c : Fin 256) (l : Fin 2048) :
    k0_pay2 (F := Ideal) v10 (ix2 c l) = v10 (ix3 (0 : Fin 1) c l) := by
  unfold k0_pay2
  exact shapeCast_1ab_ab_apply v10 _ c l

/-- The extended tile, as the payloads name it, entry by entry. -/
theorem pay3_apply (i : grid0.Coords) (xl : Vec Ideal S1x256x128 .f32) (xc : Vec Ideal S1x256x2048 .f32) (xr : Vec Ideal S1x256x128 .f32)
    (c : Fin 256) (p : Fin 2304) :
    k0_pay3 (F := Ideal) i (View.ld xl rH) (View.ld xr rH) (View.ld xc rC) (ix2 c p) = extAt i xl xc xr c p.val :=
  extended_apply i xl xc xr c p

/-- Position 125 + l + 3 of the extended tile is position l of the centre tile. -/
theorem extAt_centre (i : grid0.Coords) (xl : Vec Ideal S1x256x128 .f32) (xc : Vec Ideal S1x256x2048 .f32) (xr : Vec Ideal S1x256x128 .f32)
    (c : Fin 256) (l : Fin 2048) : extAt i xl xc xr c (125 + l.val + 3) = xc (ix3 (0 : Fin 1) c l) := by
  have hl := l.isLt
  unfold extAt
  rw [dif_neg (by omega), dif_pos (by omega)]
  exact congrArg xc (congrArg (ix3 (0 : Fin 1) c) (Fin.ext (by show 125 + l.val + 3 - 128 = l.val; omega)))

theorem stored_apply (i : grid0.Coords) (xl : Vec Ideal S1x256x128 .f32) (xc : Vec Ideal S1x256x2048 .f32) (xr : Vec Ideal S1x256x128 .f32)
    (wt : Vec Ideal S1x64x7x2048 .f32) (c : Fin 256) (l : Fin 2048) :
    stored (F := Ideal) i xl xc xr wt (ix3 (0 : Fin 1) c l)
      = ∑ k : Fin 7, extAt i xl xc xr c (125 + l.val + k.val) * wt (ix4 (0 : Fin 1) (Cert.Conv.grp c) k l) := by
  have hc : c.val < 256 := c.isLt
  have hcg : chan (⟨c.val / 64, by omega⟩ : Fin 4) (⟨c.val % 64, by omega⟩ : Fin 64) = c :=
    Fin.ext (by show c.val / 64 * 64 + c.val % 64 = c.val; omega)
  unfold stored
  rw [pay1_apply, pay6_apply, pay7_apply, pay4_apply, hcg, pay5_apply, pay2_apply]
  simp only [pay3_apply, extended_apply]
  rw [ld_rC, ← extAt_centre i xl xc xr c l,
    ld_tap_apply wt 0 (by omega) _ _ l, ld_tap_apply wt 1 (by omega) _ _ l, ld_tap_apply wt 2 (by omega) _ _ l,
    ld_tap_apply wt 3 (by omega) _ _ l, ld_tap_apply wt 4 (by omega) _ _ l, ld_tap_apply wt 5 (by omega) _ _ l,
    ld_tap_apply wt 6 (by omega) _ _ l, Fin.sum_univ_seven, zero_add]
  rfl

end Main

end Cert.KernelIdeal.Hand

end
-- ==== Proof.KValue.lean ====
/-
  The kernel's result array after the run, over the extended reals, is the specification: every output block is the
  specification's restriction to the block, and the 32 blocks tile the array.

  A block's coordinate in its array is its block index times the block's size plus the coordinate inside the block. At the
  grid point with coordinates (b, lt) the centre tile and the result are block (b, 0, lt) of [1, 256, 2048] blocks, so
  they start at position 2048 lt of a row; the left halo is block 16 lt - 1 of 128-wide blocks (positions 2048 lt - 128 on, and
  block 0 where lt = 0), the right halo block min (16 lt + 16) 63 (positions 2048 lt + 2048 on where lt ≤ 2). So entry p of
  the extended tile is the row at position 2048 lt + p - 128 wherever that is a position of the row, and zero at the two
  places (p < 128 at lt = 0, p ≥ 2176 at lt = 3) where it is not — which is entry 2048 lt + p - 125 of the row padded by
  three zeros on each side. The seven products at (c, l) are therefore the specification's at (b, c, 2048 lt + l).
-/
import proofs.«413678_j46042049413166_3_alg».proof.Proof.KFrame
import proofs.«413678_j46042049413166_3_alg».proof.Proof.KPayApply
import proofs.«413678_j46042049413166_3_alg».proof.Proof.Spec
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)
open scoped BigOperators

variable (m : (ℓ : Loc nD τ sig) → Buf (Elt Ideal) ℓ)

/-! ## The windows' block indices at a grid point -/

/-- At the point with coordinates (b, lt): the left halo is block (b, 0, 16 lt - 1) (block 0 when lt = 0), the centre tile and
    the result block (b, 0, lt), the right halo block (b, 0, min (16 lt + 16) 63), the taps block (b, 0, 0, lt). -/
theorem idx_facts : ∀ t : Fin cfg0.N,
    (win0_0.index t (0 : Fin 3) = (grid0.coords t 0).val ∧ win0_0.index t (1 : Fin 3) = 0
      ∧ win0_0.index t (2 : Fin 3) = 16 * (grid0.coords t 1).val - 1)
    ∧ (win0_1.index t (0 : Fin 3) = (grid0.coords t 0).val ∧ win0_1.index t (1 : Fin 3) = 0
      ∧ win0_1.index t (2 : Fin 3) = (grid0.coords t 1).val)
    ∧ (win0_2.index t (0 : Fin 3) = (grid0.coords t 0).val ∧ win0_2.index t (1 : Fin 3) = 0
      ∧ win0_2.index t (2 : Fin 3) = min (16 * (grid0.coords t 1).val + 16) 63)
    ∧ (win0_3.index t (0 : Fin 4) = (grid0.coords t 0).val ∧ win0_3.index t (1 : Fin 4) = 0
      ∧ win0_3.index t (2 : Fin 4) = 0 ∧ win0_3.index t (3 : Fin 4) = (grid0.coords t 1).val)
    ∧ (win0_4.index t (0 : Fin 3) = (grid0.coords t 0).val ∧ win0_4.index t (1 : Fin 3) = 0
      ∧ win0_4.index t (2 : Fin 3) = (grid0.coords t 1).val) :=
  (by decide +kernel : ∀ t : Fin grid0.N, _)

/-- Every pair of coordinates is some point's. -/
theorem coords_onto : ∀ (b : Fin 8) (q : Fin 4), ∃ t : Fin cfg0.N, (grid0.coords t 0).val = b.val ∧ (grid0.coords t 1).val = q.val :=
  (by decide +kernel : ∀ (b : Fin 8) (q : Fin 4), ∃ t : Fin grid0.N, (grid0.coords t 0).val = b.val ∧ (grid0.coords t 1).val = q.val)

/-! ## The input blocks, read off their arrays -/

/-- The left halo block at (b, lt): entry (0, c, q) is the signal at (b, c, 128 (16 lt - 1) + q). -/
theorem iblk0_apply (c : Dev nD) (t : Fin cfg0.N) (y : S1x256x128.Idx) (k : S8x256x8192.Idx)
    (h0 : (k 0).val = (grid0.coords t 0).val) (h1 : (k 1).val = (y 1).val)
    (h2 : (k 2).val = (16 * (grid0.coords t 1).val - 1) * 128 + (y 2).val) :
    (iblk m c 0 t : Vec Ideal S1x256x128 .f32) y = (m ((c : Thread nD τ).loc main_arg0) : S8x256x8192.Idx → Elt Ideal .f32) k := by
  obtain ⟨⟨e0, e1, e2⟩, -⟩ := idx_facts t
  have hy0 : (y 0).val < 1 := (y 0).isLt
  unfold iblk
  rw [View.read_apply]
  show V m c main_arg0 _ = m (c.tc.loc main_arg0) _
  unfold V
  congr 1
  funext a
  apply Fin.ext
  match a with
  | ⟨0, _⟩ => show win0_0.index t 0 * 1 + 1 * (y 0).val = (k 0).val; rw [e0, h0]; omega
  | ⟨1, _⟩ => show win0_0.index t 1 * 256 + 1 * (y 1).val = (k 1).val; rw [e1, h1]; omega
  | ⟨2, _⟩ => show win0_0.index t 2 * 128 + 1 * (y 2).val = (k 2).val; rw [e2, h2]; omega

/-- The centre tile at (b, lt): entry (0, c, q) is the signal at (b, c, 2048 lt + q). -/
theorem iblk1_apply (c : Dev nD) (t : Fin cfg0.N) (y : S1x256x2048.Idx) (k : S8x256x8192.Idx)
    (h0 : (k 0).val = (grid0.coords t 0).val) (h1 : (k 1).val = (y 1).val)
    (h2 : (k 2).val = (grid0.coords t 1).val * 2048 + (y 2).val) :
    (iblk m c 1 t : Vec Ideal S1x256x2048 .f32) y = (m ((c : Thread nD τ).loc main_arg0) : S8x256x8192.Idx → Elt Ideal .f32) k := by
  obtain ⟨-, ⟨e0, e1, e2⟩, -⟩ := idx_facts t
  have hy0 : (y 0).val < 1 := (y 0).isLt
  unfold iblk
  rw [View.read_apply]
  show V m c main_arg0 _ = m (c.tc.loc main_arg0) _
  unfold V
  congr 1
  funext a
  apply Fin.ext
  match a with
  | ⟨0, _⟩ => show win0_1.index t 0 * 1 + 1 * (y 0).val = (k 0).val; rw [e0, h0]; omega
  | ⟨1, _⟩ => show win0_1.index t 1 * 256 + 1 * (y 1).val = (k 1).val; rw [e1, h1]; omega
  | ⟨2, _⟩ => show win0_1.index t 2 * 2048 + 1 * (y 2).val = (k 2).val; rw [e2, h2]; omega

/-- The right halo block at (b, lt): entry (0, c, q) is the signal at (b, c, 128 min (16 lt + 16) 63 + q). -/
theorem iblk2_apply (c : Dev nD) (t : Fin cfg0.N) (y : S1x256x128.Idx) (k : S8x256x8192.Idx)
    (h0 : (k 0).val = (grid0.coords t 0).val) (h1 : (k 1).val = (y 1).val)
    (h2 : (k 2).val = min (16 * (grid0.coords t 1).val + 16) 63 * 128 + (y 2).val) :
    (iblk m c 2 t : Vec Ideal S1x256x128 .f32) y = (m ((c : Thread nD τ).loc main_arg0) : S8x256x8192.Idx → Elt Ideal .f32) k := by
  obtain ⟨-, -, ⟨e0, e1, e2⟩, -⟩ := idx_facts t
  have hy0 : (y 0).val < 1 := (y 0).isLt
  unfold iblk
  rw [View.read_apply]
  show V m c main_arg0 _ = m (c.tc.loc main_arg0) _
  unfold V
  congr 1
  funext a
  apply Fin.ext
  match a with
  | ⟨0, _⟩ => show win0_2.index t 0 * 1 + 1 * (y 0).val = (k 0).val; rw [e0, h0]; omega
  | ⟨1, _⟩ => show win0_2.index t 1 * 256 + 1 * (y 1).val = (k 1).val; rw [e1, h1]; omega
  | ⟨2, _⟩ => show win0_2.index t 2 * 128 + 1 * (y 2).val = (k 2).val; rw [e2, h2, Nat.one_mul]

/-- The block of taps at (b, lt): entry (0, g, k, q) is the taps at (b, g, k, 2048 lt + q). -/
theorem iblk3_apply (c : Dev nD) (t : Fin cfg0.N) (y : S1x64x7x2048.Idx) (k : S8x64x7x8192.Idx)
    (h0 : (k 0).val = (grid0.coords t 0).val) (h1 : (k 1).val = (y 1).val) (h2 : (k 2).val = (y 2).val)
    (h3 : (k 3).val = (grid0.coords t 1).val * 2048 + (y 3).val) :
    (iblk m c 3 t : Vec Ideal S1x64x7x2048 .f32) y = (m ((c : Thread nD τ).loc main_arg1) : S8x64x7x8192.Idx → Elt Ideal .f32) k := by
  obtain ⟨-, -, -, ⟨e0, e1, e2, e3⟩, -⟩ := idx_facts t
  have hy0 : (y 0).val < 1 := (y 0).isLt
  unfold iblk
  rw [View.read_apply]
  show V m c main_arg1 _ = m (c.tc.loc main_arg1) _
  unfold V
  congr 1
  funext a
  apply Fin.ext
  match a with
  | ⟨0, _⟩ => show win0_3.index t 0 * 1 + 1 * (y 0).val = (k 0).val; rw [e0, h0]; omega
  | ⟨1, _⟩ => show win0_3.index t 1 * 64 + 1 * (y 1).val = (k 1).val; rw [e1, h1]; omega
  | ⟨2, _⟩ => show win0_3.index t 2 * 7 + 1 * (y 2).val = (k 2).val; rw [e2, h2]; omega
  | ⟨3, _⟩ => show win0_3.index t 3 * 2048 + 1 * (y 3).val = (k 3).val; rw [e3, h3]; omega

/-! ## The extended tile is the padded row -/

/-- At a grid point with second coordinate lt, let the three signal blocks be the rows of x at batch b the index maps name:
    the left halo positions 2048 lt - 128 + q (for lt ≥ 1), the centre tile 2048 lt + q, the right halo 2048 lt + 2048 + q (for
    lt ≤ 2). Then entry (c, 125 + l + k) of the extended tile is entry 2048 lt + l + k of row (b, c) padded by three zeros on
    each side: in the tile's first 128 and last 128 places the halo where there is one, and zero at the row's two ends,
    which is where the padded row's own zeros lie. -/
theorem extAt_eq_padded (x : Cert.Conv.SX.Idx → EReal) (i : grid0.Coords)
    (xl : Vec Ideal S1x256x128 .f32) (xc : Vec Ideal S1x256x2048 .f32) (xr : Vec Ideal S1x256x128 .f32)
    (b : Fin 8) (lt : Nat) (hi : (i 1).val = lt) (hlt : lt < 4)
    (hL : ∀ (c : Fin 256) (q : Fin 128) (j : Cert.Conv.SX.Idx), (j 0).val = b.val → (j 1).val = c.val →
      (j 2).val + 128 = 2048 * lt + q.val → xl (ix3 (0 : Fin 1) c q) = x j)
    (hC : ∀ (c : Fin 256) (q : Fin 2048) (j : Cert.Conv.SX.Idx), (j 0).val = b.val → (j 1).val = c.val →
      (j 2).val = 2048 * lt + q.val → xc (ix3 (0 : Fin 1) c q) = x j)
    (hR : ∀ (c : Fin 256) (q : Fin 128) (j : Cert.Conv.SX.Idx), lt ≤ 2 → (j 0).val = b.val → (j 1).val = c.val →
      (j 2).val = 2048 * lt + 2048 + q.val → xr (ix3 (0 : Fin 1) c q) = x j)
    (c : Fin 256) (l : Fin 2048) (k : Fin 7) :
    extAt i xl xc xr c (125 + l.val + k.val) = Cert.Conv.padded x b c (2048 * lt + l.val + k.val) := by
  have hl := l.isLt
  have hk := k.isLt
  unfold extAt Cert.Conv.padded
  by_cases h1 : 125 + l.val + k.val < 128
  · rw [dif_pos h1]
    by_cases h0 : lt = 0
    · rw [if_pos (by rw [hi]; exact h0), dif_neg (by omega)]
    · rw [if_neg (by rw [hi]; exact h0), dif_pos (by omega)]
      exact hL c ⟨125 + l.val + k.val, h1⟩ _ rfl rfl (by show 2048 * lt + l.val + k.val - 3 + 128 = 2048 * lt + (125 + l.val + k.val); omega)
  · rw [dif_neg h1]
    by_cases h2 : 125 + l.val + k.val < 2176
    · rw [dif_pos h2, dif_pos (by omega)]
      exact hC c ⟨125 + l.val + k.val - 128, by omega⟩ _ rfl rfl (by show 2048 * lt + l.val + k.val - 3 = 2048 * lt + (125 + l.val + k.val - 128); omega)
    · rw [dif_neg h2, dif_pos (show 125 + l.val + k.val < 2304 by omega)]
      by_cases h3 : lt = 3
      · rw [if_pos (by rw [hi]; exact h3), dif_neg (by omega)]
      · rw [if_neg (by rw [hi]; exact h3), dif_pos (by omega)]
        exact hR c ⟨125 + l.val + k.val - 2176, by omega⟩ _ (by omega) rfl rfl (by show 2048 * lt + l.val + k.val - 3 = 2048 * lt + 2048 + (125 + l.val + k.val - 2176); omega)

/-! ## One entry of what a point stores -/

/-- With the four blocks as the index maps name them at a point (b, lt), the value stored at (c, l) of the block is the
    specification at (b, c, 2048 lt + l): tap by tap, the extended tile is the padded row and the tap block is the taps. -/
theorem stored_eq_conv (x : Cert.Conv.SX.Idx → EReal) (w : Cert.Conv.SW.Idx → EReal) (i : grid0.Coords)
    (xl : Vec Ideal S1x256x128 .f32) (xc : Vec Ideal S1x256x2048 .f32) (xr : Vec Ideal S1x256x128 .f32)
    (wt : Vec Ideal S1x64x7x2048 .f32)
    (b : Fin 8) (lt : Nat) (hi : (i 1).val = lt) (hlt : lt < 4)
    (hL : ∀ (c : Fin 256) (q : Fin 128) (j : Cert.Conv.SX.Idx), (j 0).val = b.val → (j 1).val = c.val →
      (j 2).val + 128 = 2048 * lt + q.val → xl (ix3 (0 : Fin 1) c q) = x j)
    (hC : ∀ (c : Fin 256) (q : Fin 2048) (j : Cert.Conv.SX.Idx), (j 0).val = b.val → (j 1).val = c.val →
      (j 2).val = 2048 * lt + q.val → xc (ix3 (0 : Fin 1) c q) = x j)
    (hR : ∀ (c : Fin 256) (q : Fin 128) (j : Cert.Conv.SX.Idx), lt ≤ 2 → (j 0).val = b.val → (j 1).val = c.val →
      (j 2).val = 2048 * lt + 2048 + q.val → xr (ix3 (0 : Fin 1) c q) = x j)
    (hW : ∀ (g : Fin 64) (k : Fin 7) (q : Fin 2048) (j : Cert.Conv.SW.Idx), (j 0).val = b.val → (j 1).val = g.val →
      (j 2).val = k.val → (j 3).val = 2048 * lt + q.val → wt (ix4 (0 : Fin 1) g k q) = w j)
    (c : Fin 256) (l : Fin 2048) (j : Cert.Conv.SX.Idx)
    (hj0 : (j 0).val = b.val) (hj1 : (j 1).val = c.val) (hj2 : (j 2).val = 2048 * lt + l.val) :
    stored (F := Ideal) i xl xc xr wt (ix3 (0 : Fin 1) c l) = Cert.Conv.conv x w j := by
  have hl := l.isLt
  have hj : j = ix3 b c (⟨2048 * lt + l.val, by omega⟩ : Fin 8192) := by
    funext a
    match a with
    | ⟨0, _⟩ => exact Fin.ext hj0
    | ⟨1, _⟩ => exact Fin.ext hj1
    | ⟨2, _⟩ => exact Fin.ext hj2
  rw [stored_apply, hj]
  show _ = Cert.Conv.convAt x w b c ⟨2048 * lt + l.val, _⟩
  unfold Cert.Conv.convAt
  refine Finset.sum_congr rfl fun k _ => ?_
  rw [extAt_eq_padded x i xl xc xr b lt hi hlt hL hC hR c l k,
    hW (Cert.Conv.grp c) k l (ix4 b (Cert.Conv.grp c) k ⟨2048 * lt + l.val, by omega⟩) rfl rfl rfl rfl]

/-! ## From the blocks to the array -/

theorem hz3 : (![0, 0, 0] : Fin 3 → Nat) = fun _ => 0 := funext fun a => by fin_cases a <;> rfl

/-- What a point writes back is the specification read through the point's block of the result. -/
theorem flushed_eq (c : Dev nD) (t : Fin cfg0.N) :
    (dats (F := Ideal) m 0 c).flushed 4 t
      = ((cfg0.win 4).blk t).view.read (Elt Ideal)
          (Cert.Conv.conv (m ((c : Thread nD τ).loc main_arg0)) (m ((c : Thread nD τ).loc main_arg1))) := by
  show (cfg0.win 4).cut (grid0.coords t) ((dats m 0 c).after 4 t) = _
  rw [after4]
  unfold outBlock
  rw [View.canon_unit_zero hz3]
  obtain ⟨-, -, -, -, ⟨e0, e1, e2⟩⟩ := idx_facts t
  have hb : (grid0.coords t 0).val < 8 := (grid0.coords t 0).isLt
  have hq : (grid0.coords t 1).val < 4 := (grid0.coords t 1).isLt
  funext y
  have hy0 : (y 0).val < 1 := (y 0).isLt
  have hy1 : (y 1).val < 256 := (y 1).isLt
  have hy2 : (y 2).val < 2048 := (y 2).isLt
  have hy : (cfg0.win 4).xinj (grid0.coords t) y = ix3 (0 : Fin 1) (⟨(y 1).val, hy1⟩ : Fin 256) (⟨(y 2).val, hy2⟩ : Fin 2048) := by
    funext a
    match a with
    | ⟨0, _⟩ => apply Fin.ext; show (y 0).val = 0; omega
    | ⟨1, _⟩ => rfl
    | ⟨2, _⟩ => rfl
  show stored (F := Ideal) (grid0.coords t) (iblk m c 0 t) (iblk m c 1 t) (iblk m c 2 t) (iblk m c 3 t) ((cfg0.win 4).xinj (grid0.coords t) y)
      = Cert.Conv.conv (m ((c : Thread nD τ).loc main_arg0)) (m ((c : Thread nD τ).loc main_arg1)) (((cfg0.win 4).blk t).view.emb y)
  rw [hy]
  refine stored_eq_conv (m ((c : Thread nD τ).loc main_arg0)) (m ((c : Thread nD τ).loc main_arg1)) (grid0.coords t)
    (iblk m c 0 t) (iblk m c 1 t) (iblk m c 2 t) (iblk m c 3 t) ⟨(grid0.coords t 0).val, hb⟩ (grid0.coords t 1).val rfl hq
    ?_ ?_ ?_ ?_ ⟨(y 1).val, hy1⟩ ⟨(y 2).val, hy2⟩ (((cfg0.win 4).blk t).view.emb y) ?_ ?_ ?_
  · intro cc q j h0 h1 h2
    exact iblk0_apply m c t (ix3 (0 : Fin 1) cc q) j h0 h1 (by have := q.isLt; show (j 2).val = (16 * (grid0.coords t 1).val - 1) * 128 + q.val; omega)
  · intro cc q j h0 h1 h2
    exact iblk1_apply m c t (ix3 (0 : Fin 1) cc q) j h0 h1 (by show (j 2).val = (grid0.coords t 1).val * 2048 + q.val; omega)
  · intro cc q j hle h0 h1 h2
    exact iblk2_apply m c t (ix3 (0 : Fin 1) cc q) j h0 h1 (by show (j 2).val = min (16 * (grid0.coords t 1).val + 16) 63 * 128 + q.val; omega)
  · intro g k q j h0 h1 h2 h3
    exact iblk3_apply m c t (ix4 (0 : Fin 1) g k q) j h0 h1 h2 (by show (j 3).val = (grid0.coords t 1).val * 2048 + q.val; omega)
  · show win0_4.index t 0 * 1 + 1 * (y 0).val = (grid0.coords t 0).val; rw [e0]; omega
  · show win0_4.index t 1 * 256 + 1 * (y 1).val = (y 1).val; rw [e1]; omega
  · show win0_4.index t 2 * 2048 + 1 * (y 2).val = 2048 * (grid0.coords t 1).val + (y 2).val; rw [e2]; omega

/-- An index of the result is in a point's block iff each coordinate is in the block's range on its axis. -/
theorem mem_blk4 (t : Fin cfg0.N) (i : S8x256x8192.Idx) :
    i ∈ ((cfg0.win 4).blk t).view.set ↔ ∀ a : Fin 3, win0_4.index t a * S1x256x2048.size a ≤ (i a).val
      ∧ (i a).val < win0_4.index t a * S1x256x2048.size a + S1x256x2048.size a := by
  show i ∈ ((View.whole main_v0).slice (win0_4.rect t)).set ↔ _
  rw [View.set_slice_whole, Rect.mem_set_unit]
  exact Iff.rfl

/-- The 32 blocks tile the result: index (b, c, l) lies in the block of the point with coordinates (b, l / 2048). -/
theorem cover (i : S8x256x8192.Idx) :
    ∃ t : Fin cfg0.N, (cfg0.win 4).flush t = true ∧ i ∈ ((cfg0.win 4).blk t).view.set := by
  have h0 : (i 0).val < 8 := (i 0).isLt
  have h1 : (i 1).val < 256 := (i 1).isLt
  have h2 : (i 2).val < 8192 := (i 2).isLt
  obtain ⟨t, hb, hq⟩ := coords_onto ⟨(i 0).val, h0⟩ ⟨(i 2).val / 2048, by omega⟩
  obtain ⟨-, -, -, -, ⟨e0, e1, e2⟩⟩ := idx_facts t
  refine ⟨t, flush0_4 t, ?_⟩
  rw [mem_blk4]
  intro a
  match a with
  | ⟨0, _⟩ => show win0_4.index t 0 * 1 ≤ (i 0).val ∧ (i 0).val < win0_4.index t 0 * 1 + 1; rw [e0, hb]; show (i 0).val * 1 ≤ (i 0).val ∧ (i 0).val < (i 0).val * 1 + 1; omega
  | ⟨1, _⟩ => show win0_4.index t 1 * 256 ≤ (i 1).val ∧ (i 1).val < win0_4.index t 1 * 256 + 256; rw [e1]; omega
  | ⟨2, _⟩ => show win0_4.index t 2 * 2048 ≤ (i 2).val ∧ (i 2).val < win0_4.index t 2 * 2048 + 2048; rw [e2, hq]; show (i 2).val / 2048 * 2048 ≤ (i 2).val ∧ (i 2).val < (i 2).val / 2048 * 2048 + 2048; omega

/-- The result array once every block has been written back. -/
theorem final_out (c : Dev nD) :
    (dats (F := Ideal) m 0 c).arrAt 4 cfg0.N
      = Cert.Conv.conv (m ((c : Thread nD τ).loc main_arg0)) (m ((c : Thread nD τ).loc main_arg1)) :=
  (dats (F := Ideal) m 0 c).arrAt_eq_of_cover 4
    (Cert.Conv.conv (m ((c : Thread nD τ).loc main_arg0)) (m ((c : Thread nD τ).loc main_arg1)))
    (fun t _ => flushed_eq m c t) (fun i => cover i)

end Cert.KernelIdeal.Hand

end
-- ==== Proof.RefTerm.lean ====
/-
  The reference's operations composed into one term of the two argument arrays: the signal padded by three zeros on
  each side of its last axis, its seven shifted copies stacked along a new axis, multiplied entry by entry with the taps
  gathered by each channel's residue mod 64, and summed over the new axis.
-/
import proofs.«413678_j46042049413166_3_alg».proof.ReferenceIdeal
import proofs.«413678_j46042049413166_3_alg».proof.Proof.Gen.ReferenceIdeal

noncomputable section

namespace Cert.ReferenceIdeal.Hand

open Idealize.ShloMosaic Cert.ReferenceIdeal Cert.ReferenceIdeal.Facts₀

variable {F : FTy → Type} [FloatOps F] [Cert.ReferenceIdeal.Facts]

/-- The scalar the remainder is taken by: 64, or 1 were it zero (the guard jnp's remainder wraps its divisor in). -/
def divisor : IVec S_ 32 :=
  select (cmpi .eq (id (constantI S_ 32 64#32)) (constantI S_ 32 0#32)) (constantI S_ 32 1#32) (id (constantI S_ 32 64#32))

/-- The truncated remainder of 0, …, 255 by that scalar. -/
def rem0 : IVec S256 32 :=
  Host.remsi (iotaInDim S256 32 0) (broadcastInDim S256 ![] bcast_S_S256 divisor)

/-- jnp's remainder of 0, …, 255 by 64: the truncated remainder, moved by the divisor where the two differ in sign. -/
def rem1 : IVec S256 32 :=
  select
    (andi
      (cmpi .ne
        (cmpi .slt rem0 (broadcastInDim S256 ![] bcast_S_S256 (constantI S_ 32 0#32)))
        (broadcastInDim S256 ![] bcast_S_S256 (cmpi .slt divisor (constantI S_ 32 0#32))))
      (cmpi .ne rem0 (broadcastInDim S256 ![] bcast_S_S256 (constantI S_ 32 0#32))))
    (addi rem0 (broadcastInDim S256 ![] bcast_S_S256 divisor))
    rem0

/-- The index column the gather reads: the remainders, a negative one wrapped by 64 (jnp's indexing), as a [256, 1] table. -/
def gidx : IVec S256x1 32 :=
  broadcastInDim S256x1 ![0] bcast_S256_S256x1_0
    (select
      (cmpi .slt rem1 (broadcastInDim S256 ![] bcast_S_S256 (constantI S_ 32 0#32)))
      (addi rem1 (broadcastInDim S256 ![] bcast_S_S256 (constantI S_ 32 64#32)))
      rem1)

/-- The signal padded by three zeros on each side of its last axis. -/
def xpad (x : FVec F S8x256x8192 .f32) : FVec F S8x256x8198 .f32 :=
  pad S8x256x8198 ![0, 0, 3] ![0, 0, 3] ![0, 0, 0] x (sitofp .f32 (constantI S_ 32 0#32)) pads_S8x256x8192_S8x256x8198_000_000_330 h_S_

/-- The seven shifted copies of the padded signal, stacked along a new third axis. -/
def stacked (x : FVec F S8x256x8192 .f32) : FVec F S8x256x7x8192 .f32 :=
  concatenate S8x256x7x8192 2
    [⟨S8x256x1x8192, broadcastInDim S8x256x1x8192 ![0, 1, 3] bcast_S8x256x8192_S8x256x1x8192_0_1_3 (extractStridedSlice S8x256x8192 ![0, 0, 0] (xpad x) slices_S8x256x8198_S8x256x8192_0_0_0)⟩,
     ⟨S8x256x1x8192, broadcastInDim S8x256x1x8192 ![0, 1, 3] bcast_S8x256x8192_S8x256x1x8192_0_1_3 (extractStridedSlice S8x256x8192 ![0, 0, 1] (xpad x) slices_S8x256x8198_S8x256x8192_0_0_1)⟩,
     ⟨S8x256x1x8192, broadcastInDim S8x256x1x8192 ![0, 1, 3] bcast_S8x256x8192_S8x256x1x8192_0_1_3 (extractStridedSlice S8x256x8192 ![0, 0, 2] (xpad x) slices_S8x256x8198_S8x256x8192_0_0_2)⟩,
     ⟨S8x256x1x8192, broadcastInDim S8x256x1x8192 ![0, 1, 3] bcast_S8x256x8192_S8x256x1x8192_0_1_3 (extractStridedSlice S8x256x8192 ![0, 0, 3] (xpad x) slices_S8x256x8198_S8x256x8192_0_0_3)⟩,
     ⟨S8x256x1x8192, broadcastInDim S8x256x1x8192 ![0, 1, 3] bcast_S8x256x8192_S8x256x1x8192_0_1_3 (extractStridedSlice S8x256x8192 ![0, 0, 4] (xpad x) slices_S8x256x8198_S8x256x8192_0_0_4)⟩,
     ⟨S8x256x1x8192, broadcastInDim S8x256x1x8192 ![0, 1, 3] bcast_S8x256x8192_S8x256x1x8192_0_1_3 (extractStridedSlice S8x256x8192 ![0, 0, 5] (xpad x) slices_S8x256x8198_S8x256x8192_0_0_5)⟩,
     ⟨S8x256x1x8192, broadcastInDim S8x256x1x8192 ![0, 1, 3] bcast_S8x256x8192_S8x256x1x8192_0_1_3 (extractStridedSlice S8x256x8192 ![0, 0, 6] (xpad x) slices_S8x256x8198_S8x256x8192_0_0_6)⟩]
    concatenates_S8x256x1x8192_S8x256x1x8192_S8x256x1x8192_S8x256x1x8192_S8x256x1x8192_S8x256x1x8192_S8x256x1x8192_S8x256x7x8192_d2

/-- The taps of each channel's weight channel. -/
def taps (w : FVec F S8x64x7x8192 .f32) : FVec F S8x256x7x8192 .f32 :=
  Host.gather gather_S8x64x7x8192_S256x1_S8x256x7x8192_023_1_n_n_1_1_8178192 w gidx

/-- The reference's result as one term of its two arguments. -/
def refTerm (x : FVec F S8x256x8192 .f32) (w : FVec F S8x64x7x8192 .f32) : FVec F S8x256x8192 .f32 :=
  Host.reduceAdd (mulf (stacked x) (taps w)) (constant S_ .f32 0x00000000#32) reducesTo_S8x256x7x8192_S8x256x8192_d2 h_S_

end Cert.ReferenceIdeal.Hand

end
-- ==== Proof.RefRun.lean ====
/-
  The reference's run: every weakly fair execution of its @main ends, with the result buffer at the operations' composed
  term of the two argument arrays and the arguments as they were.

  @main is a straight line of host operations once the three module-local functions it calls are unfolded at their
  calls: the padding function (two operations), the remainder function (twenty-one, one of them the selecting
  function's single operation, called from inside it), and @main's own thirty. A straight line's run is the fold of
  its operations' results over the launch contents; at the result buffer that fold is the composed term, operation
  for operation, and at an argument buffer, which no operation writes, it is what was there.
-/
import proofs.«413678_j46042049413166_3_alg».proof.Proof.RefTerm
import Idealize.ShloMosaic.Lib.StableHlo.Run

noncomputable section

namespace Cert.ReferenceIdeal.Hand

open Idealize.ShloMosaic Idealize.ShloMosaic.TcCoe Idealize.ShloMosaic.StableHlo Idealize.SL.Sem
open Cert.ReferenceIdeal Cert.ReferenceIdeal.Facts₀

variable {F : FTy → Type} [FloatOps F] [Cert.ReferenceIdeal.Facts]

namespace Run

/-- @main's fifty-three operations in order, the calls unfolded over their records' buffers: the scalar zero; the
    padding function's two (the zero converted to a float, the pad); the seven slices of the padded signal and their
    seven broadcasts to a unit third axis; the concatenation; the iota and the scalar 64; the remainder function's
    twenty-one (the divisor's copy, its comparison with zero and the guarded divisor through the selecting function;
    the truncated remainder; the two sign tests, their disagreement, the nonzero test and their conjunction; the
    remainder moved by the divisor; the selection); @main's wrap of a negative index by 64 and the index column; the
    gather, the product, the float zero and the sum over the third axis. -/
abbrev ops : List (HloOp τ sig (Elt F)) :=
  [ nullary main_c (constantI S_ 32 0#32),
    TRef.unary (.of main_c) main_call0.v0 (sitofp .f32),
    TRef.binary (.of main_arg0 : TRef sig ⟨S8x256x8192, .f32⟩) main_call0.v0 main_call0.v1 (fun x v => pad S8x256x8198 ![0, 0, 3] ![0, 0, 3] ![0, 0, 0] x v pads_S8x256x8192_S8x256x8198_000_000_330 h_S_),
    unary main_v0 main_v1 (extractStridedSlice S8x256x8192 ![0, 0, 0] · slices_S8x256x8198_S8x256x8192_0_0_0),
    unary main_v0 main_v2 (extractStridedSlice S8x256x8192 ![0, 0, 1] · slices_S8x256x8198_S8x256x8192_0_0_1),
    unary main_v0 main_v3 (extractStridedSlice S8x256x8192 ![0, 0, 2] · slices_S8x256x8198_S8x256x8192_0_0_2),
    unary main_v0 main_v4 (extractStridedSlice S8x256x8192 ![0, 0, 3] · slices_S8x256x8198_S8x256x8192_0_0_3),
    unary main_v0 main_v5 (extractStridedSlice S8x256x8192 ![0, 0, 4] · slices_S8x256x8198_S8x256x8192_0_0_4),
    unary main_v0 main_v6 (extractStridedSlice S8x256x8192 ![0, 0, 5] · slices_S8x256x8198_S8x256x8192_0_0_5),
    unary main_v0 main_v7 (extractStridedSlice S8x256x8192 ![0, 0, 6] · slices_S8x256x8198_S8x256x8192_0_0_6),
    unary main_v1 main_v8 (broadcastInDim S8x256x1x8192 ![0, 1, 3] bcast_S8x256x8192_S8x256x1x8192_0_1_3),
    unary main_v2 main_v9 (broadcastInDim S8x256x1x8192 ![0, 1, 3] bcast_S8x256x8192_S8x256x1x8192_0_1_3),
    unary main_v3 main_v10 (broadcastInDim S8x256x1x8192 ![0, 1, 3] bcast_S8x256x8192_S8x256x1x8192_0_1_3),
    unary main_v4 main_v11 (broadcastInDim S8x256x1x8192 ![0, 1, 3] bcast_S8x256x8192_S8x256x1x8192_0_1_3),
    unary main_v5 main_v12 (broadcastInDim S8x256x1x8192 ![0, 1, 3] bcast_S8x256x8192_S8x256x1x8192_0_1_3),
    unary main_v6 main_v13 (broadcastInDim S8x256x1x8192 ![0, 1, 3] bcast_S8x256x8192_S8x256x1x8192_0_1_3),
    unary main_v7 main_v14 (broadcastInDim S8x256x1x8192 ![0, 1, 3] bcast_S8x256x8192_S8x256x1x8192_0_1_3),
    nary ![main_v8, main_v9, main_v10, main_v11, main_v12, main_v13, main_v14] main_v15 (fun u => concatenate S8x256x7x8192 2 [⟨S8x256x1x8192, u 0⟩, ⟨S8x256x1x8192, u 1⟩, ⟨S8x256x1x8192, u 2⟩, ⟨S8x256x1x8192, u 3⟩, ⟨S8x256x1x8192, u 4⟩, ⟨S8x256x1x8192, u 5⟩, ⟨S8x256x1x8192, u 6⟩] concatenates_S8x256x1x8192_S8x256x1x8192_S8x256x1x8192_S8x256x1x8192_S8x256x1x8192_S8x256x1x8192_S8x256x1x8192_S8x256x7x8192_d2),
    nullary main_v16 (iotaInDim S256 32 0),
    nullary main_c_0 (constantI S_ 32 64#32),
    TRef.unary (.of main_c_0) main_call1.v0 id,
    TRef.nullary main_call1.c (constantI S_ 32 0#32),
    TRef.binary main_call1.v0 main_call1.c main_call1.v1 (cmpi .eq),
    TRef.nullary main_call1.c_0 (constantI S_ 32 1#32),
    TRef.ternary main_call1.v1 main_call1.c_0 main_call1.v0 main_call1.call0.v0 select,
    TRef.unary main_call1.call0.v0 main_call1.v3 (broadcastInDim S256 ![] bcast_S_S256),
    TRef.binary (.of main_v16) main_call1.v3 main_call1.v4 Host.remsi,
    TRef.nullary main_call1.c_1 (constantI S_ 32 0#32),
    TRef.unary main_call1.c_1 main_call1.v5 (broadcastInDim S256 ![] bcast_S_S256),
    TRef.binary main_call1.v4 main_call1.v5 main_call1.v6 (cmpi .ne),
    TRef.nullary main_call1.c_2 (constantI S_ 32 0#32),
    TRef.unary main_call1.c_2 main_call1.v7 (broadcastInDim S256 ![] bcast_S_S256),
    TRef.binary main_call1.v4 main_call1.v7 main_call1.v8 (cmpi .slt),
    TRef.nullary main_call1.c_3 (constantI S_ 32 0#32),
    TRef.binary main_call1.call0.v0 main_call1.c_3 main_call1.v9 (cmpi .slt),
    TRef.unary main_call1.v9 main_call1.v10 (broadcastInDim S256 ![] bcast_S_S256),
    TRef.binary main_call1.v8 main_call1.v10 main_call1.v11 (cmpi .ne),
    TRef.binary main_call1.v11 main_call1.v6 main_call1.v12 andi,
    TRef.unary main_call1.call0.v0 main_call1.v13 (broadcastInDim S256 ![] bcast_S_S256),
    TRef.binary main_call1.v4 main_call1.v13 main_call1.v14 addi,
    TRef.ternary main_call1.v12 main_call1.v14 main_call1.v4 main_call1.v15 select,
    nullary main_c_1 (constantI S_ 32 0#32),
    unary main_c_1 main_v18 (broadcastInDim S256 ![] bcast_S_S256),
    binary main_v17 main_v18 main_v19 (cmpi .slt),
    nullary main_c_2 (constantI S_ 32 64#32),
    unary main_c_2 main_v20 (broadcastInDim S256 ![] bcast_S_S256),
    binary main_v17 main_v20 main_v21 addi,
    ternary main_v19 main_v21 main_v17 main_v22 select,
    unary main_v22 main_v23 (broadcastInDim S256x1 ![0] bcast_S256_S256x1_0),
    binary main_arg1 main_v23 main_v24 (fun x i => Host.gather gather_S8x64x7x8192_S256x1_S8x256x7x8192_023_1_n_n_1_1_8178192 x i),
    binary main_v15 main_v24 main_v25 mulf,
    nullary main_cst (constant S_ .f32 0x00000000#32),
    binary main_v25 main_cst main_v26 (fun x v => Host.reduceAdd x v reducesTo_S8x256x7x8192_S8x256x8192_d2 h_S_) ]

-- fifty-three binds re-associated: the rewrite under the chain recurses once per statement
set_option maxRecDepth 2048 in
/-- @main is that straight line: the functions' definitions unfolded at their calls and the records at their
    fields, both sides are one chain of host steps once sequencing is reassociated. -/
theorem main_eq (c : Dev nD) : main (F := F) c = seq ops := by
  simp only [main, fn_pad.body, fn_remainder.body, fn_where.body, seq, bind_assoc, pure_bind]
  rfl

/-- Seven arrays of one slot along the third axis, laid side by side along it. -/
def cat7 (u0 u1 u2 u3 u4 u5 u6 : FVec F S8x256x1x8192 .f32) : FVec F S8x256x7x8192 .f32 :=
  concatenate S8x256x7x8192 2
    [⟨S8x256x1x8192, u0⟩, ⟨S8x256x1x8192, u1⟩, ⟨S8x256x1x8192, u2⟩, ⟨S8x256x1x8192, u3⟩, ⟨S8x256x1x8192, u4⟩,
     ⟨S8x256x1x8192, u5⟩, ⟨S8x256x1x8192, u6⟩]
    concatenates_S8x256x1x8192_S8x256x1x8192_S8x256x1x8192_S8x256x1x8192_S8x256x1x8192_S8x256x1x8192_S8x256x1x8192_S8x256x7x8192_d2

/-- The concatenation at its result buffer: the seven operands' contents, each read at its own reference (as
    arguments of one function, so that what each operand held can be rewritten in place). -/
theorem cat_result (V : Valuation τ sig (Elt F)) :
    (nary (τ := τ) (Val := Elt F) ![main_v8, main_v9, main_v10, main_v11, main_v12, main_v13, main_v14] main_v15 (fun u => concatenate S8x256x7x8192 2 [⟨S8x256x1x8192, u 0⟩, ⟨S8x256x1x8192, u 1⟩, ⟨S8x256x1x8192, u 2⟩, ⟨S8x256x1x8192, u 3⟩, ⟨S8x256x1x8192, u 4⟩, ⟨S8x256x1x8192, u 5⟩, ⟨S8x256x1x8192, u 6⟩] concatenates_S8x256x1x8192_S8x256x1x8192_S8x256x1x8192_S8x256x1x8192_S8x256x1x8192_S8x256x1x8192_S8x256x1x8192_S8x256x7x8192_d2)).result V
        (no_index (Proc.devRef .tc main_v15))
      = cat7 (V (Proc.devRef .tc main_v8)) (V (Proc.devRef .tc main_v9)) (V (Proc.devRef .tc main_v10))
          (V (Proc.devRef .tc main_v11)) (V (Proc.devRef .tc main_v12)) (V (Proc.devRef .tc main_v13))
          (V (Proc.devRef .tc main_v14)) := by
  rw [nary_result]
  rfl

attribute [local irreducible] Host.reduceAdd Host.gather Host.remsi pad concatenate in
/-- The fold at the result buffer is the composed term. One pass rewrites each operation's result at its own
    buffer to its function's value and at any other buffer to what was there (which reference is which is decided);
    the typed references' transports, the identity at these literal references, are then removed, and what is left
    is the composed term's own text, unfolded. The sum, the gather, the remainder, the pad and the concatenation stay
    folded throughout: the equation never looks inside them. -/
theorem val_eq (V : Valuation τ sig (Elt F)) :
    after ops V (main_v26 : DevRef τ sig)
      = refTerm (F := F) (V (main_arg0 : DevRef τ sig)) (V (main_arg1 : DevRef τ sig)) := by
  simp (disch := decide) only [after_cons, after_nil,
      nullary_result', unary_result', binary_result', ternary_result', cat_result,
      nullary_result_ne', unary_result_ne', binary_result_ne', ternary_result_ne', nary_result_ne']
  simp only [TRef.ofBuf, TRef.toBuf, cast_eq]
  rfl

/-- No operation writes the first argument's buffer. -/
theorem arg0_eq (V : Valuation τ sig (Elt F)) :
    after ops V (main_arg0 : DevRef τ sig) = V (main_arg0 : DevRef τ sig) := by
  simp (disch := decide) only [after_cons, after_nil,
      nullary_result_ne', unary_result_ne', binary_result_ne', ternary_result_ne', nary_result_ne']

/-- No operation writes the second argument's buffer. -/
theorem arg1_eq (V : Valuation τ sig (Elt F)) :
    after ops V (main_arg1 : DevRef τ sig) = V (main_arg1 : DevRef τ sig) := by
  simp (disch := decide) only [after_cons, after_nil,
      nullary_result_ne', unary_result_ne', binary_result_ne', ternary_result_ne', nary_result_ne']

theorem scopedRefs_eq : (Finset.univ.filter fun b : Ref sig .tc => b.isScoped) = ∅ := by decide
theorem scopedSems_eq : (Finset.univ.filter fun sm : SemLoc sig => sm.isScoped .tc) = ∅ := by decide

/-- Every operation touches TensorCore references only. -/
theorem ops_sub : (ops : List (HloOp τ sig (Elt F))).Forall fun op => op.bufs ⊆ tcRefs τ sig :=
  ⟨nullary_bufs_sub .., unary_bufs_sub .., binary_bufs_sub .., unary_bufs_sub .., unary_bufs_sub .., unary_bufs_sub ..,
    unary_bufs_sub .., unary_bufs_sub .., unary_bufs_sub .., unary_bufs_sub .., unary_bufs_sub .., unary_bufs_sub ..,
    unary_bufs_sub .., unary_bufs_sub .., unary_bufs_sub .., unary_bufs_sub .., unary_bufs_sub .., nary_bufs_sub ..,
    nullary_bufs_sub .., nullary_bufs_sub .., unary_bufs_sub .., nullary_bufs_sub .., binary_bufs_sub .., nullary_bufs_sub ..,
    ternary_bufs_sub .., unary_bufs_sub .., binary_bufs_sub .., nullary_bufs_sub .., unary_bufs_sub .., binary_bufs_sub ..,
    nullary_bufs_sub .., unary_bufs_sub .., binary_bufs_sub .., nullary_bufs_sub .., binary_bufs_sub .., unary_bufs_sub ..,
    binary_bufs_sub .., binary_bufs_sub .., unary_bufs_sub .., binary_bufs_sub .., ternary_bufs_sub .., nullary_bufs_sub ..,
    unary_bufs_sub .., binary_bufs_sub .., nullary_bufs_sub .., unary_bufs_sub .., binary_bufs_sub .., ternary_bufs_sub ..,
    unary_bufs_sub .., binary_bufs_sub .., binary_bufs_sub .., nullary_bufs_sub .., binary_bufs_sub ..⟩

end Run

open Run in
/-- At the compiled mesh, for any float values, from any memory with zero counters: every weakly fair execution of
    @main terminates, the result buffer ends at the composed term of the two arguments' launch contents, and the
    arguments end as they were. -/
theorem run (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v26) = refTerm (F := F) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono
    (fun _ h c => ⟨(h c main_v26).trans (val_eq (launchContents m c)),
      (h c main_arg0).trans (arg0_eq (launchContents m c)),
      (h c main_arg1).trans (arg1_eq (launchContents m c))⟩)
    (run_seq scopedRefs_eq scopedSems_eq defs main (fun _ => ops) main_eq (fun _ => ops_sub) m ρ)

end Cert.ReferenceIdeal.Hand

end
-- ==== Proof.RefGidx.lean ====
/-
  The index column the reference's gather reads: entry c is c mod 64.

  Read at one entry, the chain is a scalar computation on 32-bit words: the divisor is the word 64; the truncated signed
  remainder of the position c < 256 by 64 is, both words being non-negative, the remainder of the values, c mod 64; the
  two corrections that follow (add the divisor where the remainder is non-zero and differs from it in sign; add 64 where
  the result is negative) both test a non-negative word for being below zero, so each select keeps its second operand.
-/
import proofs.«413678_j46042049413166_3_alg».proof.Proof.RefTerm
import Idealize.ShloMosaic.Lib.ValueIdx
import Idealize.ShloMosaic.Lib.StableHlo.Predicate

noncomputable section

namespace Cert.ReferenceIdeal.Hand

open Idealize.ShloMosaic Idealize.ShloMosaic.ValueIdx Idealize.ShloMosaic.StableHlo.Predicate Cert.ReferenceIdeal Cert.ReferenceIdeal.Facts₀

variable [Cert.ReferenceIdeal.Facts]

/-! ## Words -/

/-- The truncated signed remainder of two non-negative words is the remainder of their values. -/
theorem srem_of_nonneg (x y : BitVec 32) (hx : x.toNat < 2 ^ 31) (hy : y.toNat < 2 ^ 31) :
    x.srem y = BitVec.ofNat 32 (x.toNat % y.toNat) := by
  have mx : x.msb = false := BitVec.msb_eq_false_iff_two_mul_lt.mpr (by omega)
  have my : y.msb = false := BitVec.msb_eq_false_iff_two_mul_lt.mpr (by omega)
  rw [BitVec.srem_eq, mx, my]
  apply BitVec.eq_of_toNat_eq
  have hlt : x.toNat % y.toNat < 2 ^ 32 := lt_of_le_of_lt (Nat.mod_le _ _) (by omega)
  simp only [BitVec.toNat_umod, BitVec.toNat_ofNat, Nat.mod_eq_of_lt hlt]

/-- A non-negative word is not below zero. -/
theorem slt_zero_of_nonneg (x : BitVec 32) (hx : x.toNat < 2 ^ 31) : IntOp.cmpi .slt x 0#32 = 0#1 := by
  apply eq_zero_of_ne_one
  intro h
  have := (slt_iff_toNat hx (by decide)).mp h
  simp at this

/-- A conjunction whose first bit is clear is clear. -/
theorem andi_zero_left (b : BitVec 1) : IntOp.andi 0#1 b = 0#1 := by
  show 0#1 &&& b = 0#1
  exact BitVec.zero_and

/-! ## The chain, read at one entry -/

/-- The scalar the remainder is taken by is 64. -/
theorem divisor_apply (j : S_.Idx) : divisor j = 64#32 := by
  show Scalar.select (IntOp.cmpi .eq 64#32 0#32) 1#32 64#32 = 64#32
  decide

/-- A scalar laid over the 256 entries reads the scalar at each. -/
theorem bcast256_apply {α : Type} (v : S_.Idx → α) (c : Fin 256) :
    broadcastInDim S256 ![] bcast_S_S256 v (ix1 c) = v ix0 := by
  simp only [broadcastInDim]
  congr 1
  funext a
  exact a.elim0

/-- The truncated remainder at entry c is c mod 64. -/
theorem rem0_apply (c : Fin 256) : rem0 (ix1 c) = BitVec.ofNat 32 (c.val % 64) := by
  have hc := c.isLt
  show IntOp.remsi .host (BitVec.ofNat 32 c.val) (broadcastInDim S256 ![] bcast_S_S256 divisor (ix1 c)) = _
  rw [bcast256_apply, divisor_apply]
  have hcorner : ¬ IntOp.SDivCorner (BitVec.ofNat 32 c.val) 64#32 := by
    intro h; rcases h with h | ⟨_, h⟩ <;> exact absurd h (by decide)
  have hx : (BitVec.ofNat 32 c.val).toNat = c.val := by simp only [BitVec.toNat_ofNat]; omega
  rw [IntOp.remsi, if_neg hcorner, srem_of_nonneg _ _ (by omega) (by decide), hx]
  rfl

/-- The floored remainder at entry c: the truncated remainder is not moved, it and the divisor being both non-negative. -/
theorem rem1_apply (c : Fin 256) : rem1 (ix1 c) = BitVec.ofNat 32 (c.val % 64) := by
  have hr : (BitVec.ofNat 32 (c.val % 64)).toNat < 2 ^ 31 := by simp only [BitVec.toNat_ofNat]; omega
  show Scalar.select
      (IntOp.andi
        (IntOp.cmpi .ne (IntOp.cmpi .slt (rem0 (ix1 c)) (broadcastInDim S256 ![] bcast_S_S256 (constantI S_ 32 0#32) (ix1 c)))
          (broadcastInDim S256 ![] bcast_S_S256 (cmpi .slt divisor (constantI S_ 32 0#32)) (ix1 c)))
        (IntOp.cmpi .ne (rem0 (ix1 c)) (broadcastInDim S256 ![] bcast_S_S256 (constantI S_ 32 0#32) (ix1 c))))
      (IntOp.addi (rem0 (ix1 c)) (broadcastInDim S256 ![] bcast_S_S256 divisor (ix1 c)))
      (rem0 (ix1 c)) = _
  rw [bcast256_apply, bcast256_apply, rem0_apply]
  show Scalar.select
      (IntOp.andi
        (IntOp.cmpi .ne (IntOp.cmpi .slt (BitVec.ofNat 32 (c.val % 64)) 0#32) (IntOp.cmpi .slt (divisor ix0) 0#32))
        _) _ _ = _
  rw [divisor_apply, slt_zero_of_nonneg _ hr]
  have h64 : IntOp.cmpi .ne 0#1 (IntOp.cmpi .slt 64#32 0#32) = 0#1 := by decide
  rw [h64, andi_zero_left]
  exact select_zero _ _

/-- The index column at row c is c mod 64. -/
theorem gidx_apply (c : Fin 256) : gidx (ix2 c (0 : Fin 1)) = BitVec.ofNat 32 (c.val % 64) := by
  have hr : (BitVec.ofNat 32 (c.val % 64)).toNat < 2 ^ 31 := by simp only [BitVec.toNat_ofNat]; omega
  have hb : ∀ {α : Type} (v : S256.Idx → α), broadcastInDim S256x1 ![0] bcast_S256_S256x1_0 v (ix2 c (0 : Fin 1)) = v (ix1 c) := by
    intro α v
    simp only [broadcastInDim]
    congr 1
    funext a
    match a with
    | ⟨0, _⟩ => rfl
  rw [gidx, hb]
  show Scalar.select (IntOp.cmpi .slt (rem1 (ix1 c)) (broadcastInDim S256 ![] bcast_S_S256 (constantI S_ 32 0#32) (ix1 c))) _ (rem1 (ix1 c)) = _
  rw [bcast256_apply, rem1_apply]
  show Scalar.select (IntOp.cmpi .slt (BitVec.ofNat 32 (c.val % 64)) 0#32) _ _ = _
  rw [slt_zero_of_nonneg _ hr]
  exact select_zero _ _

end Cert.ReferenceIdeal.Hand

end
-- ==== Proof.RefRead.lean ====
/-
  The reference's composed term, read at an index over the extended reals, is the specification.
-/
import proofs.«413678_j46042049413166_3_alg».proof.Proof.RefTerm
import proofs.«413678_j46042049413166_3_alg».proof.Proof.RefGidx
import proofs.«413678_j46042049413166_3_alg».proof.Proof.Spec
import Idealize.ShloMosaic.Lib.ValueIdx
import Idealize.ShloMosaic.Lib.IdealHost
import Idealize.ShloMosaic.Lib.KernelVsHost
import Idealize.ShloMosaic.Lib.Pipeline.Value
import Idealize.ShloMosaic.PureOps.Ideal.Laws

noncomputable section

namespace Cert.ReferenceIdeal.Hand

open Idealize.ShloMosaic Idealize.ShloMosaic.ValueIdx Cert.ReferenceIdeal Cert.ReferenceIdeal.Facts₀
open scoped BigOperators

variable [Cert.ReferenceIdeal.Facts]

/-! ## The padded signal at an index -/

/-- The value the signal is padded with is zero. -/
theorem padValue_eq :
    (sitofp .f32 (constantI S_ 32 0#32) : FVec Ideal S_ .f32) (Shape.Idx.first h_S_) = 0 := by
  show (((0#32 : BitVec 32).toInt : ℝ) : EReal) = 0
  simp

/-- Entry (b, c, j) of the padded signal is entry j of row (b, c) extended by three zeros on each side. -/
theorem xpad_apply (x : FVec Ideal S8x256x8192 .f32) (b : Fin 8) (c : Fin 256) (j : Fin 8198) :
    xpad x (ix3 b c j) = Cert.Conv.padded x b c j.val := by
  unfold xpad Cert.Conv.padded
  by_cases hj : 3 ≤ j.val ∧ j.val < 8195
  · rw [dif_pos hj]
    refine pad_apply_of_inside _ _ _ x _ _ _ (ix3 b c j) (ix3 b c ⟨j.val - 3, by omega⟩) fun a => ?_
    match a with
    | ⟨0, _⟩ => show b.val = 0 + b.val * (0 + 1); omega
    | ⟨1, _⟩ => show c.val = 0 + c.val * (0 + 1); omega
    | ⟨2, _⟩ => show j.val = 3 + (j.val - 3) * (0 + 1); omega
  · rw [dif_neg hj]
    refine (pad_apply_of_not_inside _ _ _ x _ _ _ (ix3 b c j) (2 : Fin 3) ?_).trans padValue_eq
    show ¬(3 ≤ j.val ∧ (j.val - 3) % (0 + 1) = 0 ∧ (j.val - 3) / (0 + 1) < 8192)
    omega

/-! ## The shifted copies and their stack at an index -/

/-- The copy shifted by k reads the padded signal k places further along the last axis. -/
theorem slice_apply (x : FVec Ideal S8x256x8192 .f32) (k : Nat) (hk : k < 7)
    (h : S8x256x8198.Slices ![0, 0, k] S8x256x8192) (b : Fin 8) (c : Fin 256) (l : Fin 8192) :
    extractStridedSlice S8x256x8192 ![0, 0, k] (xpad x) h (ix3 b c l) = Cert.Conv.padded x b c (l.val + k) := by
  refine (extractStridedSlice_apply ![0, 0, k] (xpad x) h (ix3 b c l)
    (ix3 b c (⟨l.val + k, by omega⟩ : Fin 8198)) fun a => ?_).trans (xpad_apply x b c _)
  match a with
  | ⟨0, _⟩ => show b.val = 0 + b.val; omega
  | ⟨1, _⟩ => show c.val = 0 + c.val; omega
  | ⟨2, _⟩ => show l.val + k = k + l.val; omega

/-- A copy given a new third axis of extent one reads the copy at the other three coordinates. -/
theorem bcast_apply (y : FVec Ideal S8x256x8192 .f32) (b : Fin 8) (c : Fin 256) (l : Fin 8192) :
    broadcastInDim S8x256x1x8192 ![0, 1, 3] bcast_S8x256x8192_S8x256x1x8192_0_1_3 y (ix4 b c (0 : Fin 1) l)
      = y (ix3 b c l) := by
  refine broadcastInDim_apply _ _ y (ix4 b c (0 : Fin 1) l) (ix3 b c l) fun a => ?_
  match a with
  | ⟨0, _⟩ => rfl
  | ⟨1, _⟩ => rfl
  | ⟨2, _⟩ => rfl

/-- Entry (b, c, k, l) of the stack is entry l + k of row (b, c) extended by three zeros on each side. -/
theorem stacked_apply (x : FVec Ideal S8x256x8192 .f32) (b : Fin 8) (c : Fin 256) (k : Fin 7) (l : Fin 8192) :
    stacked x (ix4 b c k l) = Cert.Conv.padded x b c (l.val + k.val) := by
  unfold stacked
  have hi : ∀ (n : Fin 7) (b' : Fin S8x256x1x8192.rank), b'.cast (rfl : S8x256x1x8192.rank = S8x256x7x8192.rank) ≠ 2 →
      ((ix4 b c (0 : Fin 1) l : S8x256x1x8192.Idx) b').val
        = ((ix4 b c n l : S8x256x7x8192.Idx) (b'.cast (rfl : S8x256x1x8192.rank = S8x256x7x8192.rank))).val := by
    intro n b' hb
    match b' with
    | ⟨0, _⟩ => rfl
    | ⟨1, _⟩ => rfl
    | ⟨2, _⟩ => exact absurd rfl hb
    | ⟨3, _⟩ => rfl
  match k with
  | ⟨0, _⟩ =>
    refine (concatenate_apply_piece 2 _ _ (ix4 b c (⟨0, by omega⟩ : Fin 7) l) 0 (by show 0 < 7; omega) S8x256x1x8192 _ rfl rfl 0 rfl
      (ix4 b c (0 : Fin 1) l) (hi _) rfl).trans ?_
    exact (bcast_apply _ b c l).trans (slice_apply x 0 (by omega) _ b c l)
  | ⟨1, _⟩ =>
    refine (concatenate_apply_piece 2 _ _ (ix4 b c (⟨1, by omega⟩ : Fin 7) l) 1 (by show 1 < 7; omega) S8x256x1x8192 _ rfl rfl 1 rfl
      (ix4 b c (0 : Fin 1) l) (hi _) rfl).trans ?_
    exact (bcast_apply _ b c l).trans (slice_apply x 1 (by omega) _ b c l)
  | ⟨2, _⟩ =>
    refine (concatenate_apply_piece 2 _ _ (ix4 b c (⟨2, by omega⟩ : Fin 7) l) 2 (by show 2 < 7; omega) S8x256x1x8192 _ rfl rfl 2 rfl
      (ix4 b c (0 : Fin 1) l) (hi _) rfl).trans ?_
    exact (bcast_apply _ b c l).trans (slice_apply x 2 (by omega) _ b c l)
  | ⟨3, _⟩ =>
    refine (concatenate_apply_piece 2 _ _ (ix4 b c (⟨3, by omega⟩ : Fin 7) l) 3 (by show 3 < 7; omega) S8x256x1x8192 _ rfl rfl 3 rfl
      (ix4 b c (0 : Fin 1) l) (hi _) rfl).trans ?_
    exact (bcast_apply _ b c l).trans (slice_apply x 3 (by omega) _ b c l)
  | ⟨4, _⟩ =>
    refine (concatenate_apply_piece 2 _ _ (ix4 b c (⟨4, by omega⟩ : Fin 7) l) 4 (by show 4 < 7; omega) S8x256x1x8192 _ rfl rfl 4 rfl
      (ix4 b c (0 : Fin 1) l) (hi _) rfl).trans ?_
    exact (bcast_apply _ b c l).trans (slice_apply x 4 (by omega) _ b c l)
  | ⟨5, _⟩ =>
    refine (concatenate_apply_piece 2 _ _ (ix4 b c (⟨5, by omega⟩ : Fin 7) l) 5 (by show 5 < 7; omega) S8x256x1x8192 _ rfl rfl 5 rfl
      (ix4 b c (0 : Fin 1) l) (hi _) rfl).trans ?_
    exact (bcast_apply _ b c l).trans (slice_apply x 5 (by omega) _ b c l)
  | ⟨6, _⟩ =>
    refine (concatenate_apply_piece 2 _ _ (ix4 b c (⟨6, by omega⟩ : Fin 7) l) 6 (by show 6 < 7; omega) S8x256x1x8192 _ rfl rfl 6 rfl
      (ix4 b c (0 : Fin 1) l) (hi _) rfl).trans ?_
    exact (bcast_apply _ b c l).trans (slice_apply x 6 (by omega) _ b c l)

/-! ## The gathered taps at an index -/

/-- A residue mod 64 written as a 32-bit word, read back as a signed integer and clamped into the 64 weight channels,
    is the residue. -/
theorem clamp_ofNat (n : Nat) (hn : n < 64) : min (BitVec.ofNat 32 n).toInt.toNat (64 - 1) = n := by
  have hN : (BitVec.ofNat 32 n).toNat = n := by rw [BitVec.toNat_ofNat]; exact Nat.mod_eq_of_lt (by omega)
  have hI : (BitVec.ofNat 32 n).toInt = (n : Int) := by
    rw [BitVec.toInt_eq_toNat_of_lt (by rw [hN]; omega), hN]
  rw [hI, Int.toNat_natCast]; omega

/-- Entry (b, c, k, l) of the gathered taps is the tap (b, c mod 64, k, l). -/
theorem taps_apply (w : FVec Ideal S8x64x7x8192 .f32) (b : Fin 8) (c : Fin 256) (k : Fin 7) (l : Fin 8192) :
    taps w (ix4 b c k l) = w (ix4 b (Cert.Conv.grp c) k l) := by
  unfold taps Host.gather
  refine congrArg w (funext fun a => Fin.ext ?_)
  match a with
  | ⟨0, _⟩ => exact Nat.zero_add b.val
  | ⟨1, _⟩ =>
    have hsi : gather_S8x64x7x8192_S256x1_S8x256x7x8192_023_1_n_n_1_1_8178192.siIdx (ix4 b c k l)
        ⟨0, by show 0 < 1; omega⟩ = ix2 c (0 : Fin 1) := by
      funext b'; refine Fin.ext ?_
      match b' with
      | ⟨0, _⟩ => rfl
      | ⟨1, _⟩ => rfl
    show min (gidx (gather_S8x64x7x8192_S256x1_S8x256x7x8192_023_1_n_n_1_1_8178192.siIdx (ix4 b c k l)
        ⟨0, by show 0 < 1; omega⟩)).toInt.toNat (64 - 1) = c.val % 64
    rw [hsi, gidx_apply]
    exact clamp_ofNat _ (Nat.mod_lt _ (by omega))
  | ⟨2, _⟩ => exact Nat.zero_add k.val
  | ⟨3, _⟩ => exact Nat.zero_add l.val

/-! ## The composed term -/

/-- The reference's term at (b, c, l) is the seven products of the extended row at l, …, l + 6 with the taps at l. -/
theorem refTerm_eq (x : FVec Ideal S8x256x8192 .f32) (w : FVec Ideal S8x64x7x8192 .f32) :
    refTerm (F := Ideal) x w = Cert.Conv.conv x w := by
  funext i
  obtain ⟨b, c, l, rfl⟩ : ∃ (b : Fin 8) (c : Fin 256) (l : Fin 8192), i = ix3 b c l := ⟨i 0, i 1, i 2, eq_ix3 i⟩
  have hR : S8x256x7x8192.Reduces [2] S8x256x8192 := by decide
  show Ideal.hostReduceAdd reducesTo_S8x256x7x8192_S8x256x8192_d2 (mulf (stacked x) (taps w))
      ((constant S_ .f32 0x00000000#32 : FVec Ideal S_ .f32) (Shape.Idx.first h_S_)) (ix3 b c l)
    = Cert.Conv.convAt x w b c l
  rw [Ideal.hostReduceAdd_single _ hR, constant_apply, Ideal.ofBits_zero_f32, zero_add]
  unfold Cert.Conv.convAt
  refine Finset.sum_congr rfl fun (k : Fin 7) _ => ?_
  have hl : hR.lift (ix3 b c l) k = ix4 b c k l := by
    funext a; refine Fin.ext ?_
    match a with
    | ⟨0, _⟩ => rfl
    | ⟨1, _⟩ => rfl
    | ⟨2, _⟩ => rfl
    | ⟨3, _⟩ => rfl
  show mulf (stacked x) (taps w) (hR.lift (ix3 b c l) k)
    = Cert.Conv.padded x b c (l.val + k.val) * w (ix4 b (Cert.Conv.grp c) k l)
  rw [hl, mulf_apply, stacked_apply, taps_apply]

end Cert.ReferenceIdeal.Hand

end
-- ==== Proof.lean ====
/-
  The certificate. Both programs compute, for a batch b, a channel c and a position l,
      Σ_{k < 7}  xpad[b, c, l + k] · w[b, c mod 64, k, l],
  xpad the signal's row extended by three zeros on each side (Proof/Spec.lean). The kernel walks an 8 × 4 grid of tiles of
  2048 positions; at each tile it joins a 128-wide halo on either side of the tile (zero at the two ends of a row) into one
  2304-wide strip, reads the seven shifted windows off that strip by rotating it, and accumulates window × tap; channel
  c = 64·r + g uses weight channel g because the 256 channels are cast row-major to 4 × 64. The reference pads, stacks the
  seven shifts, gathers the taps by c mod 64 and sums over the new axis. Over the extended reals both are the same seven
  products summed, so the two results agree entry by entry with no appeal to finiteness: the precondition is never opened.

  The kernel's three signal windows read one array, so its frame lends that array's buffer to them at three shares that
  make up the whole (Proof/KRun.lean; Proof/BitsRun.lean is the same text for the word-level program). The ideal pass rewrote
  nothing, so the word-level program's idealization is its own text and `preserves` has nothing to state.
-/
import proofs.«413678_j46042049413166_3_alg».proof.Defs
import proofs.«413678_j46042049413166_3_alg».proof.Proof.Gen.Kernel
import proofs.«413678_j46042049413166_3_alg».proof.Proof.Gen.KernelIdeal
import proofs.«413678_j46042049413166_3_alg».proof.Proof.Gen.ReferenceIdeal
import proofs.«413678_j46042049413166_3_alg».proof.Proof.Gen.Pre_finite_inputs
import proofs.«413678_j46042049413166_3_alg».proof.Proof.BitsRun
import proofs.«413678_j46042049413166_3_alg».proof.Proof.KRun
import proofs.«413678_j46042049413166_3_alg».proof.Proof.KValue
import proofs.«413678_j46042049413166_3_alg».proof.Proof.RefRun
import proofs.«413678_j46042049413166_3_alg».proof.Proof.RefRead
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_k : Cert.frame_Kernel := fun m ρ _ => Cert.Kernel.Hand.frame m ρ

/-- So does its reading over the extended reals. -/
theorem frame_ki : Cert.frame_KernelIdeal := fun m ρ _ => Cert.KernelIdeal.Hand.frame m ρ

/-- The reference runs and leaves its arguments as they were: its run, the result dropped. -/
theorem frame_ri : Cert.frame_ReferenceIdeal := fun m ρ _ =>
  (θ_run Cert.ReferenceIdeal.defs _ _).mono (fun _ h c => (h c).2) (Cert.ReferenceIdeal.Hand.run (F := Ideal) m ρ)

/-- From memories that agree on the signal and the taps, the kernel's result array ends at the specification of its
    arguments (the 32 blocks written back tile it) and the reference's at its composed term, which read at an index is the
    same specification. -/
theorem algebraic : Cert.algebraic_KernelIdeal_ReferenceIdeal := by
  intro m ρ m' ρ' _ hagree
  refine ⟨fun c => Cert.Conv.conv (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), ?_, ?_⟩
  · exact (θ_run Cert.KernelIdeal.defs _ _).mono
      (fun _ h c => ⟨(h c 4).trans (Cert.KernelIdeal.Hand.final_out m c),
        (h c 0).trans ((Cert.KernelIdeal.Hand.dats m 0 c).arrAt_in 0 rfl _),
        (h c 3).trans ((Cert.KernelIdeal.Hand.dats m 0 c).arrAt_in 3 rfl _)⟩)
      (Cert.KernelIdeal.Hand.run_main (F := Ideal) m ρ)
  · refine (θ_run Cert.ReferenceIdeal.defs _ _).mono (fun _ h c => ⟨(h c).1.trans ?_, (h c).2⟩)
      (Cert.ReferenceIdeal.Hand.run (F := Ideal) m' ρ')
    rw [Cert.ReferenceIdeal.Hand.refTerm_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
